-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x32000 : Shape := ⟨2, ![4096, 32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S4096x32000 .f32) : IVec S_ 1 :=
  let main_v0 : FVec F S4096x32000 .f32 := Host.absf main_arg1
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg0 main_v4
  let main_c_1 : IVec S_ 32 := constantI S_ 32 32000#32
  let main_v6 : IVec S4096 32 := broadcastInDim S4096 ![] bcast_S_S4096 main_c_1
  let main_v7 : IVec S4096 1 := cmpi .slt main_arg0 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096 : Shape := ⟨1, ![4096]⟩
abbrev S4096x32000 : Shape := ⟨2, ![4096, 32000]⟩
abbrev S4096x1 : Shape := ⟨2, ![4096, 1]⟩
abbrev S1024x3200 : Shape := ⟨2, ![1024, 3200]⟩
abbrev S1024x1 : Shape := ⟨2, ![1024, 1]⟩
abbrev S1024 : Shape := ⟨1, ![1024]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S4096, .i32⟩
  | .hbm, ⟨1, _⟩ => ⟨S4096x32000, .f32⟩
  | .hbm, ⟨2, _⟩ => ⟨S4096x1, .i32⟩
  | .hbm, ⟨3, _⟩ => ⟨S4096x1, .f32⟩
  | .hbm, ⟨4, _⟩ => ⟨S_, .f32⟩
  | .hbm, ⟨5, _⟩ => ⟨S_, .f32⟩
  | .local _ .vmem, ⟨0, _⟩ => ⟨S1024x3200, .f32⟩
  | .local _ .vmem, ⟨1, _⟩ => ⟨S1024x3200, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v49 : BitVec 1 := Scalar.cmpi .eq arg1 c9_i32
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096_S4096x1 : S4096.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3200_S1024x3200_0_0 : ∀ a, (![0, 0] : Fin 2 → Nat) a + S1024x3200.size a ≤ S1024x3200.size a
  h_S1024x3200 : 0 < S1024x3200.numel
  reduces_S1024x3200_S1024 : S1024x3200.Reduces [1] S1024
  shapeCasts_S1024_S1024x1 : S1024.ShapeCasts S1024x1
  broadcasts_S1024x1_S1024x3200 : S1024x1.Broadcasts S1024x3200
  iota_S1024x3200_d1_w32 : S1024x3200.Iotas .tc 32 [1]
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3200.size a ≤ S4096x32000.size a
  hwx0_0 : ∀ i : grid0.Coords, EltTy.bits .f32 = 32 ∨ (Rect.block (s := S4096x32000) S1024x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .i32 = 32 ∨ (Rect.block (s := S4096x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

abbrev win0_0 : Pipeline.Window sig grid0 :=
  Pipeline.Window.ofSpec (Memref.whole main_arg1) S1024x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096 : Shape := ⟨1, ![4096]⟩
abbrev S4096x32000 : Shape := ⟨2, ![4096, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x32000, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S4096x1x1, .i32⟩
  | .hbm, ⟨30, _⟩ => ⟨S1, .i32⟩
  | .hbm, ⟨31, _⟩ => ⟨S_, .i32⟩
  | .hbm, ⟨32, _⟩ => ⟨S4096x1x1, .i32⟩
  | .hbm, ⟨33, _⟩ => ⟨S4096x1x1, .i1⟩
  | .hbm, ⟨34, _⟩ => ⟨S1x1x1, .i32⟩
  | .hbm, ⟨35, _⟩ => ⟨S4096x1x1, .i32⟩
  | .hbm, ⟨36, _⟩ => ⟨S4096x1x1, .i1⟩
  | .hbm, ⟨37, _⟩ => ⟨S4096x1x1, .i1⟩
  | .hbm, ⟨38, _⟩ => ⟨S_, .i1⟩
  | .hbm, ⟨39, _⟩ => ⟨S4096x1, .i1⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v4 : Ref sig .tc := ⟨.hbm, 43, rfl⟩
abbrev main_v5 : Ref sig .tc := ⟨.hbm, 44, rfl⟩
abbrev main_cst_1 : Ref sig .tc := ⟨.hbm, 45, rfl⟩
abbrev main_v6 : Ref sig .tc := ⟨.hbm, 46, rfl⟩
abbrev main_cst_2 : Ref sig .tc := ⟨.hbm, 47, rfl⟩
abbrev main_v7 : Ref sig .tc := ⟨.hbm, 48, rfl⟩
abbrev main_v8 : Ref sig .tc := ⟨.hbm, 49, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  reducesTo_S4096x32000_S_d0_1 : S4096x32000.ReducesTo [0, 1] S_
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.LogSumExp.lean ====
/-
  The real-number and extended-real laws behind the label-smoothed cross-entropy
      loss = Σ_i [ c₁ · (Σ_c x_ic − K · lse_i) + c₂ · (x_{i,y_i} − lse_i) ],   lse_i = log Σ_c exp x_ic.
  * `log_sumexp_shift`: for every real shift `M`, log Σ_c exp (x_c − M) = lse − M, so that
    M + log Σ_c exp (x_c − M) does not depend on M (the running maximum of an online soft-max and the
    row maximum of a two-pass one are both just shifts).
  * `RowState`: what the four per-row accumulators of the online pass hold after the first `n` columns —
    the running maximum some real `M`, the running sum Σ_{c<n} exp (x_c − M), the running Σ_{c<n} x_c
    and the running Σ_{c<n} [c = y] x_c — with `RowState.step` for one tile of 3200 further columns and
    `RowState.final` for the row's loss term once all columns are in.
  * `total_eq`: Σ_i of the rows' loss terms is c₁ · Σ_{i,c} (x_ic − lse_i) + c₂ · Σ_i (x_{i,y_i} − lse_i).
-/
import Idealize.ShloMosaic.PureOps.Ideal

noncomputable section

namespace Cert.Loss

open Idealize.ShloMosaic Finset

/-- A finite sum of real numbers, each read as an extended real, is the real sum read as an extended real. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The log-sum-exp of the first `N` entries of a row. -/
def lse (g : ℕ → ℝ) (N : ℕ) : ℝ := Real.log (∑ c ∈ range N, Real.exp (g c))

theorem sumexp_pos (g : ℕ → ℝ) {N : ℕ} (hN : 0 < N) : 0 < ∑ c ∈ range N, Real.exp (g c) :=
  Finset.sum_pos (fun _ _ => Real.exp_pos _) ⟨0, Finset.mem_range.mpr hN⟩

theorem sumexp_shift (g : ℕ → ℝ) (N : ℕ) (M : ℝ) :
    ∑ c ∈ range N, Real.exp (g c - M) = Real.exp (-M) * ∑ c ∈ range N, Real.exp (g c) := by
  rw [Finset.mul_sum]
  refine Finset.sum_congr rfl fun c _ => ?_
  rw [← Real.exp_add]; congr 1; ring

/-- SHIFT INVARIANCE: log Σ_c exp (x_c − M) = lse − M, at the extended reals' `log`. -/
theorem log_sumexp_shift (g : ℕ → ℝ) {N : ℕ} (hN : 0 < N) (M : ℝ) :
    Ideal.log ((∑ c ∈ range N, Real.exp (g c - M) : ℝ) : EReal) = ((lse g N - M : ℝ) : EReal) := by
  have hS := sumexp_pos g hN
  have hpos : 0 < ∑ c ∈ range N, Real.exp (g c - M) := by
    rw [sumexp_shift]; exact mul_pos (Real.exp_pos _) hS
  rw [Ideal.log_coe, if_neg (not_le.mpr hpos), sumexp_shift, Real.log_mul (Real.exp_pos _).ne' hS.ne', Real.log_exp]
  unfold lse
  congr 1; ring

/-! ## The online pass over one row -/

/-- What the four accumulators of one row hold once the first `n` columns are in: before any column the
    maximum is `-∞` and the sum of exponentials `0`; afterwards the maximum is SOME real `M` and the sum of
    exponentials is Σ_{c<n} exp (x_c − M). The plain sum and the target-column sum need no case. -/
structure RowState (g : ℕ → ℝ) (yc n : ℕ) (m l r t : EReal) : Prop where
  ml : (n = 0 ∧ m = ⊥ ∧ l = 0) ∨ ∃ M : ℝ, m = (M : EReal) ∧ l = ((∑ c ∈ range n, Real.exp (g c - M) : ℝ) : EReal)
  r_eq : r = ((∑ c ∈ range n, g c : ℝ) : EReal)
  t_eq : t = ((∑ c ∈ range n, (if c = yc then g c else 0) : ℝ) : EReal)

/-- Before the first tile: the kernel's reset. -/
theorem RowState.init (g : ℕ → ℝ) (yc : ℕ) : RowState g yc 0 ⊥ 0 0 0 :=
  ⟨.inl ⟨rfl, rfl, rfl⟩, by simp, by simp⟩

/-- The maximum of finitely many (at least one) real numbers, folded from `-∞`, is a real number. -/
theorem fold_max_real {k : ℕ} (xt : Fin (k + 1) → EReal) (hx : ∀ j, ∃ a : ℝ, xt j = (a : EReal)) :
    ∃ T : ℝ, (Finset.univ : Finset (Fin (k + 1))).fold max ⊥ xt = (T : EReal) := by
  have hbot : ⊥ < (Finset.univ : Finset (Fin (k + 1))).fold max ⊥ xt := by
    rw [Finset.lt_fold_max]
    right
    obtain ⟨a, ha⟩ := hx 0
    exact ⟨0, Finset.mem_univ _, by rw [ha]; exact EReal.bot_lt_coe a⟩
  have htop : (Finset.univ : Finset (Fin (k + 1))).fold max ⊥ xt < ⊤ := by
    rw [Finset.fold_max_lt]
    refine ⟨bot_lt_top, fun j _ => ?_⟩
    obtain ⟨a, ha⟩ := hx j
    rw [ha]; exact EReal.coe_lt_top a
  exact ⟨_, (EReal.coe_toReal htop.ne hbot.ne').symm⟩

/-- Extending a sum over the first `n` columns by a tile whose `j`-th entry is the real `f (n + j)`. -/
theorem tile_sum (f : ℕ → ℝ) (n k : ℕ) (xt : Fin (k + 1) → EReal)
    (hx : ∀ j, xt j = ((f (n + j.val) : ℝ) : EReal)) :
    ((∑ c ∈ range n, f c : ℝ) : EReal) + ∑ j, xt j = ((∑ c ∈ range (n + (k + 1)), f c : ℝ) : EReal) := by
  rw [Finset.sum_range_add, EReal.coe_add, Finset.sum_range (fun x => f (n + x))]
  congr 1
  rw [← coe_sum]
  exact Finset.sum_congr rfl (fun j _ => hx j)

/-- One tile, once the new maximum is known to be the real `Mn` and the old sum of exponentials, rescaled,
    is Σ_{c<n} exp (x_c − Mn). -/
theorem RowState.step_aux {g : ℕ → ℝ} {yc n : ℕ} {m l r t : EReal} (h : RowState g yc n m l r t) {k : ℕ}
    (xt : Fin (k + 1) → EReal) (hx : ∀ j, xt j = ((g (n + j.val) : ℝ) : EReal))
    (hit : Fin (k + 1) → Prop) [DecidablePred hit] (hhit : ∀ j, hit j ↔ n + j.val = yc) (Mn : ℝ)
    (hl : l * Ideal.exp (m - (Mn : EReal)) = ((∑ c ∈ range n, Real.exp (g c - Mn) : ℝ) : EReal)) :
    RowState g yc (n + (k + 1)) (Mn : EReal)
      (l * Ideal.exp (m - (Mn : EReal)) + ∑ j, Ideal.exp (xt j - (Mn : EReal)))
      (r + ∑ j, xt j)
      (t + ∑ j, if hit j then xt j else 0) := by
  refine ⟨.inr ⟨Mn, rfl, ?_⟩, ?_, ?_⟩
  · rw [hl]
    refine tile_sum (fun c => Real.exp (g c - Mn)) n k _ (fun j => ?_)
    rw [hx j, ← EReal.coe_sub, Ideal.exp_coe]
  · rw [h.r_eq]
    exact tile_sum g n k xt hx
  · rw [h.t_eq]
    refine tile_sum (fun c => if c = yc then g c else 0) n k _ (fun j => ?_)
    by_cases hj : hit j
    · have e : n + j.val = yc := (hhit j).mp hj
      rw [if_pos hj, if_pos e, hx j]
    · have e : ¬ (n + j.val = yc) := fun e => hj ((hhit j).mpr e)
      rw [if_neg hj, if_neg e, EReal.coe_zero]

/-- ONE TILE of `w` further columns `xt j = x_{n+j}`: the new maximum is the old one against the tile's, the sum of
    exponentials is rescaled by exp (m_old − m_new) and extended, the two plain sums are extended; `hit j` says
    whether column `n + j` is the target column. -/
theorem RowState.step {g : ℕ → ℝ} {yc n : ℕ} {m l r t : EReal} (h : RowState g yc n m l r t) {k : ℕ}
    (xt : Fin (k + 1) → EReal) (hx : ∀ j, xt j = ((g (n + j.val) : ℝ) : EReal))
    (hit : Fin (k + 1) → Prop) [DecidablePred hit] (hhit : ∀ j, hit j ↔ n + j.val = yc) :
    RowState g yc (n + (k + 1)) (max m ((Finset.univ : Finset (Fin (k + 1))).fold max ⊥ xt))
      (l * Ideal.exp (m - max m ((Finset.univ : Finset (Fin (k + 1))).fold max ⊥ xt))
        + ∑ j, Ideal.exp (xt j - max m ((Finset.univ : Finset (Fin (k + 1))).fold max ⊥ xt)))
      (r + ∑ j, xt j)
      (t + ∑ j, if hit j then xt j else 0) := by
  obtain ⟨T, hT⟩ := fold_max_real xt (fun j => ⟨_, hx j⟩)
  rw [hT]
  rcases h.ml with ⟨hn, hm, hl0⟩ | ⟨M0, hm, hl0⟩
  · have hmax : max m (T : EReal) = (T : EReal) := by rw [hm]; exact max_bot_left _
    rw [hmax]
    refine h.step_aux xt hx hit hhit T ?_
    rw [hl0, hn, zero_mul, Finset.range_zero, Finset.sum_empty, EReal.coe_zero]
  · have hmax : max m (T : EReal) = ((max M0 T : ℝ) : EReal) := by
      rw [hm]; exact (EReal.coe_strictMono.monotone.map_max).symm
    rw [hmax]
    refine h.step_aux xt hx hit hhit (max M0 T) ?_
    rw [hl0, hm, ← EReal.coe_sub, Ideal.exp_coe, ← EReal.coe_mul, Finset.sum_mul]
    congr 1
    refine Finset.sum_congr rfl fun c _ => ?_
    rw [← Real.exp_add, sub_add_sub_cancel]

/-- One row's term of the loss, over the reals: c₁ (Σ_c x_c − K·lse) + c₂ (x_y − lse). -/
def rowLoss (c₁ c₂ : ℝ) (g : ℕ → ℝ) (N yc : ℕ) : ℝ :=
  c₁ * ((∑ c ∈ range N, g c) - (N : ℝ) * lse g N) + c₂ * (g yc - lse g N)

/-- ALL COLUMNS IN: the kernel's closing expression c₁ (r − K (m + log l)) + c₂ (t − (m + log l)) is the row's term. -/
theorem RowState.final {g : ℕ → ℝ} {yc N : ℕ} {m l r t : EReal} (h : RowState g yc N m l r t) (hN : 0 < N)
    (hy : yc < N) (c₁ c₂ : ℝ) :
    (c₁ : EReal) * (r - ((N : ℝ) : EReal) * (m + Ideal.log l)) + (c₂ : EReal) * (t - (m + Ideal.log l))
      = ((rowLoss c₁ c₂ g N yc : ℝ) : EReal) := by
  rcases h.ml with ⟨hn, -, -⟩ | ⟨M, hm, hl⟩
  · omega
  · have hml : m + Ideal.log l = ((lse g N : ℝ) : EReal) := by
      rw [hm, hl, log_sumexp_shift g hN M, ← EReal.coe_add, add_sub_cancel]
    have ht : t = ((g yc : ℝ) : EReal) := by
      rw [h.t_eq, Finset.sum_ite_eq', if_pos (Finset.mem_range.mpr hy)]
    rw [hml, ht, h.r_eq, ← EReal.coe_mul, ← EReal.coe_sub, ← EReal.coe_mul, ← EReal.coe_sub,
      ← EReal.coe_mul, ← EReal.coe_add]
    rfl

/-- The two-pass form of one entry's log-soft-max: (x − M) − log Σ_c exp (x_c − M) = x − lse, for a real shift `M`. -/
theorem logsoftmax_entry (g : ℕ → ℝ) {N : ℕ} (hN : 0 < N) (M x : ℝ) :
    ((x : EReal) - (M : EReal)) - Ideal.log ((∑ c ∈ range N, Real.exp (g c - M) : ℝ) : EReal)
      = ((x - lse g N : ℝ) : EReal) := by
  rw [log_sumexp_shift g hN M, ← EReal.coe_sub, ← EReal.coe_sub]
  congr 1
  ring

/-- THE LAW JOINING THE TWO SIDES, over the reals: the rows' terms add up to the reference's two sums. -/
theorem total_eq (c₁ c₂ : ℝ) (R N : ℕ) (G : ℕ → ℕ → ℝ) (Y : ℕ → ℕ) :
    ∑ i ∈ range R, rowLoss c₁ c₂ (G i) N (Y i)
      = c₁ * (∑ i ∈ range R, ∑ c ∈ range N, (G i c - lse (G i) N)) + c₂ * ∑ i ∈ range R, (G i (Y i) - lse (G i) N) := by
  unfold rowLoss
  rw [Finset.sum_add_distrib, ← Finset.mul_sum, ← Finset.mul_sum]
  congr 2
  refine Finset.sum_congr rfl fun i _ => ?_
  rw [Finset.sum_sub_distrib, Finset.sum_const, Finset.card_range, nsmul_eq_mul]

end Cert.Loss

end
-- ==== Proof.Spec.lean ====
/-
  THE COMMON VALUE of the two programs: the label-smoothed cross-entropy of finite logits `p : [4096, 32000]`
  against labels `y : [4096]` in range,
      total = Σ_i [ c₁ · (Σ_c p_ic − 32000 · lse_i) + c₂ · (p_{i,y_i} − lse_i) ],   lse_i = log Σ_c exp p_ic,
  a real number; c₁ and c₂ are the real numbers the two shared float literals (3.125e-06 and 0.9, as f32) denote.
  Also the few float literals of the programs read as extended reals.
-/
import proofs.«423546_j42984032699180_2_alg».proof.Proof.LogSumExp
import Idealize.ShloMosaic.Lib.ValueIdx
import Idealize.ShloMosaic.PureOps.Ideal.Laws

noncomputable section

namespace Cert.Loss

open Idealize.ShloMosaic Idealize.ShloMosaic.ValueIdx Finset

/-- The pattern of `-∞`. -/
theorem ofBits_neg_inf : Ideal.ofBits .f32 0xFF800000#32 = ⊥ := by
  simp [Ideal.ofBits, Ideal.ieee]

/-- `32000.0` denotes the real `32000`. -/
theorem ofBits_K : Ideal.ofBits .f32 0x46FA0000#32 = ((32000 : ℝ) : EReal) := by
  simp [Ideal.ofBits, Ideal.ieee, -EReal.coe_mul]; norm_num

/-- The real number the literal `3.125e-06` (f32) denotes. -/
def c₁ : ℝ := (Ideal.ofBits .f32 0x3651B717#32).toReal
/-- The real number the literal `0.9` (f32) denotes. -/
def c₂ : ℝ := (Ideal.ofBits .f32 0x3F666666#32).toReal

theorem ofBits_c₁ : Ideal.ofBits .f32 0x3651B717#32 = ((c₁ : ℝ) : EReal) := by
  unfold c₁
  refine (EReal.coe_toReal ?_ ?_).symm <;> simp [Ideal.ofBits, Ideal.ieee, -EReal.coe_mul]

theorem ofBits_c₂ : Ideal.ofBits .f32 0x3F666666#32 = ((c₂ : ℝ) : EReal) := by
  unfold c₂
  refine (EReal.coe_toReal ?_ ?_).symm <;> simp [Ideal.ofBits, Ideal.ieee, -EReal.coe_mul]

/-- Row `i` of the logits as a real sequence of columns (0 past the array: those are never read). -/
def Xr (p : (⟨2, ![4096, 32000]⟩ : Shape).Idx → EReal) (i : ℕ) : ℕ → ℝ := fun col =>
  if h : i < 4096 ∧ col < 32000 then (p (ix2 ⟨i, h.1⟩ ⟨col, h.2⟩)).toReal else 0

/-- Row `i`'s label as a column number. -/
def Yc (y : IVec (⟨1, ![4096]⟩ : Shape) 32) (i : ℕ) : ℕ :=
  if h : i < 4096 then (y (ix1 ⟨i, h⟩)).toNat else 0

/-- The loss. -/
def total (y : IVec (⟨1, ![4096]⟩ : Shape) 32) (p : (⟨2, ![4096, 32000]⟩ : Shape).Idx → EReal) : ℝ :=
  ∑ i ∈ range 4096, rowLoss c₁ c₂ (Xr p i) 32000 (Yc y i)

/-- The logits are finite: every entry is a real number. -/
def Finite (p : (⟨2, ![4096, 32000]⟩ : Shape).Idx → EReal) : Prop := ∀ i, ∃ a : ℝ, p i = (a : EReal)
/-- The labels are column numbers. -/
def InRange (y : IVec (⟨1, ![4096]⟩ : Shape) 32) : Prop := ∀ i, 0 ≤ (y i).toInt ∧ (y i).toInt < 32000

theorem Finite.eq_Xr {p : (⟨2, ![4096, 32000]⟩ : Shape).Idx → EReal} (hp : Finite p) (i : Fin 4096) (col : Fin 32000) :
    p (ix2 i col) = ((Xr p i.val col.val : ℝ) : EReal) := by
  obtain ⟨a, ha⟩ := hp (ix2 i col)
  unfold Xr
  rw [dif_pos ⟨i.isLt, col.isLt⟩]
  show p (ix2 i col) = _
  rw [ha, EReal.toReal_coe]

theorem InRange.Yc_lt {y : IVec (⟨1, ![4096]⟩ : Shape) 32} (hy : InRange y) (i : ℕ) : Yc y i < 32000 := by
  unfold Yc
  split
  · rename_i h
    have h1 := hy (ix1 ⟨i, h⟩)
    have h2 := BitVec.toInt_eq_toNat_cond (y (ix1 ⟨i, h⟩))
    have h3 := (y (ix1 ⟨i, h⟩)).isLt
    split_ifs at h2 <;> omega
  · omega

end Cert.Loss

end
-- ==== Proof.RefValue.lean ====
/-
  The reference's last stage, at the extended reals, under finite logits and labels in range, is the loss:
  every entry of the log-soft-max is p_ic − lse_i (the row maximum it subtracts is a real shift, and
  M + log Σ exp (x − M) does not depend on M); the gather reads column y_i of row i (a label in range is neither
  wrapped nor out of bounds, so the fill value is never selected); the two host sums are sums of reals.
-/
import proofs.«423546_j42984032699180_2_alg».proof.Proof.RefRead
import proofs.«423546_j42984032699180_2_alg».proof.Proof.Spec
import Idealize.ShloMosaic.Lib.ValueIdx
import Idealize.ShloMosaic.Lib.ValueIdxRank1
import Idealize.ShloMosaic.Lib.ReduceAll

noncomputable section

namespace Cert.ReferenceIdeal.LossRef

open Cert.ReferenceIdeal Cert.ReferenceIdeal.Gen Idealize.ShloMosaic Idealize.ShloMosaic.ValueIdx

section Stages

open Cert.ReferenceIdeal.ReadP Cert.Loss Finset

/-! ## Real maxima -/

/-- The maximum, folded from a value below `+∞`, of finitely many (at least one) real numbers is a real number. -/
theorem fold_max_real' {ι : Type} [Fintype ι] [Nonempty ι] (b : EReal) (hb : b < ⊤) (f : ι → EReal)
    (hf : ∀ j, ∃ a : ℝ, f j = (a : EReal)) : ∃ T : ℝ, (Finset.univ : Finset ι).fold max b f = (T : EReal) := by
  have hbot : ⊥ < (Finset.univ : Finset ι).fold max b f := by
    rw [Finset.lt_fold_max]
    right
    obtain ⟨j⟩ := ‹Nonempty ι›
    obtain ⟨a, ha⟩ := hf j
    exact ⟨j, Finset.mem_univ _, by rw [ha]; exact EReal.bot_lt_coe a⟩
  have htop : (Finset.univ : Finset ι).fold max b f < ⊤ := by
    rw [Finset.fold_max_lt]
    refine ⟨hb, fun j _ => ?_⟩
    obtain ⟨a, ha⟩ := hf j
    rw [ha]; exact EReal.coe_lt_top a
  exact ⟨_, (EReal.coe_toReal htop.ne hbot.ne').symm⟩

theorem red_rows : S4096x32000.Reduces [1] S4096 := by decide

/-- The row maximum the log-soft-max subtracts is a real number. -/
theorem rowmax_real (p : FVec Ideal S4096x32000 .f32) (hp : Cert.Loss.Finite p) (i : S4096.Idx) :
    ∃ M : ℝ, val_main_call0_v2 (F := Ideal) p i = (M : EReal) := by
  rw [val_main_call0_v2_apply, val_main_call0_v1_apply, val_main_call0_cst_0_apply]
  unfold val_main_call0_v0
  rw [Host.reduce_eq_fold_single _ p _ reducesTo_S4096x32000_S4096_d1 red_rows h_S_ i]
  have hb : (val_main_call0_cst (F := Ideal)) (Shape.Idx.first h_S_) = ⊥ := Cert.Loss.ofBits_neg_inf
  haveI : Nonempty (Fin (S4096x32000.size 1)) := ⟨⟨0, by decide⟩⟩
  obtain ⟨T, hT⟩ := fold_max_real' ((val_main_call0_cst (F := Ideal)) (Shape.Idx.first h_S_))
    (by rw [hb]; exact bot_lt_top) (p ∘ red_rows.lift i) (fun k => hp _)
  refine ⟨T, ?_⟩
  change max (Ideal.ofBits .f32 0xFF800000#32) ((Finset.univ : Finset (Fin (S4096x32000.size 1))).fold max
    ((val_main_call0_cst (F := Ideal)) (Shape.Idx.first h_S_)) (p ∘ red_rows.lift i)) = (T : EReal)
  rw [hT, Cert.Loss.ofBits_neg_inf]
  exact max_bot_left _

/-! ## The log-soft-max, entry by entry -/

theorem idx_v4_v3 (a : Fin 4096) (c : Fin 32000) : idx_main_call0_v3 (idx_main_call0_v4 (ix2 a c)) = ix1 a := by
  funext d; match d with | ⟨0, _⟩ => rfl
theorem idx_v10_v8 (a : Fin 4096) (c : Fin 32000) : idx_main_call0_v8 (idx_main_call0_v10 (ix2 a c)) = ix1 a := by
  funext d; match d with | ⟨0, _⟩ => rfl
theorem idx_v7 (a : Fin 4096) (k : Fin 32000) : idx_main_call0_v7 (ix1 a) k = ix2 a k := by
  funext d; match d with | ⟨0, _⟩ => rfl | ⟨1, _⟩ => rfl

/-- Entry (a, c) less the row's shift. -/
theorem v5_entry (p : FVec Ideal S4096x32000 .f32) (hp : Cert.Loss.Finite p) (a : Fin 4096) (c : Fin 32000) (M : ℝ)
    (hM : val_main_call0_v2 (F := Ideal) p (ix1 a) = (M : EReal)) :
    val_main_call0_v5 (F := Ideal) p (ix2 a c) = ((Xr p a c - M : ℝ) : EReal) := by
  rw [val_main_call0_v5_apply, val_main_call0_v4_apply, val_main_call0_v3_apply, idx_v4_v3, hM, hp.eq_Xr a c,
    Ideal.subf_def, ← EReal.coe_sub]

/-- Row a's sum of shifted exponentials. -/
theorem v7_row (p : FVec Ideal S4096x32000 .f32) (hp : Cert.Loss.Finite p) (a : Fin 4096) (M : ℝ)
    (hM : val_main_call0_v2 (F := Ideal) p (ix1 a) = (M : EReal)) :
    val_main_call0_v7 (F := Ideal) p (ix1 a) = ((∑ c ∈ range 32000, Real.exp (Xr p a c - M) : ℝ) : EReal) := by
  rw [val_main_call0_v7_apply]
  have h0 : (val_main_call0_cst_1 (F := Ideal)) (Shape.Idx.first h_S_) = 0 := Ideal.ofBits_zero_f32
  rw [h0, zero_add, Finset.sum_range (fun c => Real.exp (Xr p a c - M)), ← Cert.Loss.coe_sum]
  refine Finset.sum_congr rfl fun k _ => ?_
  rw [idx_v7, val_main_call0_v6_apply, v5_entry p hp a k M hM, Ideal.hostUnary_exp_def, Ideal.exp_coe]

/-- Entry (a, c) of the log-soft-max is p_ac − lse_a. -/
theorem logp_entry (p : FVec Ideal S4096x32000 .f32) (hp : Cert.Loss.Finite p) (a : Fin 4096) (c : Fin 32000) :
    val_main_v0 (F := Ideal) p (ix2 a c) = ((Xr p a c - lse (Xr p a) 32000 : ℝ) : EReal) := by
  obtain ⟨M, hM⟩ := rowmax_real p hp (ix1 a)
  rw [val_main_v0_apply, v5_entry p hp a c M hM, val_main_call0_v10_apply, val_main_call0_v9_apply,
    val_main_call0_v8_apply, idx_v10_v8, v7_row p hp a M hM, Ideal.hostUnary_log_def, Ideal.subf_def, EReal.coe_sub]
  exact Cert.Loss.logsoftmax_entry (Xr p a) (by norm_num) M (Xr p a c)

/-- The sum of every entry of the log-soft-max. -/
theorem v1_eq (p : FVec Ideal S4096x32000 .f32) (hp : Cert.Loss.Finite p) (i : S_.Idx) :
    val_main_v1 (F := Ideal) p i
      = ((∑ a ∈ range 4096, ∑ c ∈ range 32000, (Xr p a c - lse (Xr p a) 32000) : ℝ) : EReal) := by
  rw [val_main_v1_apply]
  have h0 : (val_main_cst (F := Ideal)) (Shape.Idx.first h_S_) = 0 := Ideal.ofBits_zero_f32
  rw [h0, zero_add, sum_idx2, Finset.sum_range (fun a => ∑ c ∈ range 32000, (Xr p a c - lse (Xr p a) 32000)),
    ← Cert.Loss.coe_sum]
  refine Finset.sum_congr rfl fun a _ => ?_
  rw [Finset.sum_range (fun c => Xr p a c - lse (Xr p a) 32000), ← Cert.Loss.coe_sum]
  exact Finset.sum_congr rfl fun c _ => logp_entry p hp a c

/-! ## The label side: compares, the wrap-around select, the bounds mask -/

theorem cmpi_slt_zero {w : BitVec 32} (h : 0 ≤ w.toInt) : IntOp.cmpi .slt w 0#32 = 0#1 := by
  unfold IntOp.cmpi
  simp only [BitVec.slt]
  have h0 : (0#32 : BitVec 32).toInt = 0 := by decide
  rw [h0, decide_eq_false (by omega)]; rfl

theorem cmpi_sge_zero {w : BitVec 32} (h : 0 ≤ w.toInt) : IntOp.cmpi .sge w 0#32 = 1#1 := by
  unfold IntOp.cmpi
  simp only [BitVec.sle]
  have h0 : (0#32 : BitVec 32).toInt = 0 := by decide
  rw [h0, decide_eq_true (by omega)]; rfl

theorem cmpi_sle_hi {w : BitVec 32} (h : w.toInt < 32000) : IntOp.cmpi .sle w 31999#32 = 1#1 := by
  unfold IntOp.cmpi
  simp only [BitVec.sle]
  have h0 : (31999#32 : BitVec 32).toInt = 31999 := by decide
  rw [h0, decide_eq_true (by omega)]; rfl

theorem idx_v3_main (a : Fin 4096) (u : Fin 1) : idx_main_v3 (ix2 a u) = ix1 a := by
  funext d; match d with | ⟨0, _⟩ => rfl

/-- A label in range is not wrapped: the select keeps it. -/
theorem sel_idx (y : IVec S4096 32) (hy : Cert.Loss.InRange y) (a : Fin 4096) (u : Fin 1) :
    val_main_call1_v4 (F := Ideal) y (ix2 a u) = y (ix1 a) := by
  rw [val_main_call1_v4_apply, val_main_call1_v1_apply, val_main_v3_apply, idx_v3_main, val_main_call1_v0_apply,
    val_main_call1_c_apply, cmpi_slt_zero (hy (ix1 a)).1, select_zero]

theorem idx_v5_c1 (a : Fin 4096) (u v : Fin 1) : idx_main_call1_v5 (ix3 a u v) = ix2 a (0 : Fin 1) := by
  funext d
  match d with
  | ⟨0, _⟩ =>
    refine Fin.ext ?_
    show ((a.val * 1 + u.val) * 1 + v.val) / 1 = a.val
    have := u.isLt; have := v.isLt; omega
  | ⟨1, _⟩ => rfl

/-- The start index the gather is handed for row a is the label. -/
theorem start_idx (y : IVec S4096 32) (hy : Cert.Loss.InRange y) (a : Fin 4096) (u v : Fin 1) :
    val_main_call1_v5 (F := Ideal) y (ix3 a u v) = y (ix1 a) := by
  rw [val_main_call1_v5_apply, idx_v5_c1, sel_idx y hy]

theorem mask_entry (y : IVec S4096 32) (hy : Cert.Loss.InRange y) (a : Fin 4096) (u v : Fin 1) :
    val_main_call1_v11 (F := Ideal) y (ix3 a u v) = 1#1 := by
  rw [val_main_call1_v11_apply, val_main_call1_v7_apply, val_main_call1_v10_apply, start_idx y hy,
    val_main_call1_v6_apply, val_main_call1_c_2_apply, val_main_call1_v9_apply, val_main_call1_v8_apply,
    val_main_call1_c_1_apply, cmpi_sge_zero (hy (ix1 a)).1, cmpi_sle_hi (hy (ix1 a)).2]
  rfl

theorem fold_andi_one {ι : Type} [Fintype ι] (f : ι → BitVec 1) (hf : ∀ k, f k = 1#1) :
    (Finset.univ : Finset ι).fold IntOp.andi 1#1 f = 1#1 := by
  classical
  have key : ∀ s : Finset ι, s.fold IntOp.andi 1#1 f = 1#1 := by
    intro s
    induction s using Finset.induction_on with
    | empty => rfl
    | insert a s ha ih => rw [Finset.fold_insert ha, ih, hf a]; rfl
  exact key _

theorem red_mask : S4096x1x1.Reduces [2] S4096x1 := by decide

/-- Every label is in bounds, so the mask is set. -/
theorem v12_one (y : IVec S4096 32) (hy : Cert.Loss.InRange y) (j : S4096x1.Idx) :
    val_main_call1_v12 (F := Ideal) y j = 1#1 := by
  unfold val_main_call1_v12
  rw [Host.reduce_eq_fold_single IntOp.andi _ _ reducesTo_S4096x1x1_S4096x1_d2 red_mask h_S_ j]
  refine fold_andi_one _ fun k => ?_
  show val_main_call1_v11 (F := Ideal) y (red_mask.lift j k) = 1#1
  rw [eq_ix3 (red_mask.lift j k)]
  exact mask_entry y hy _ _ _

/-! ## The gather reads column y_a of row a -/

/-- The gather's dimension numbers: batching axis 0, collapsed axis 1, start index map [1]. -/
abbrev GD : GatherDims S4096x32000 S4096x1x1 S4096x1 := gather_S4096x32000_S4096x1x1_S4096x1_n_1_0_0_1_2_11

/-- Operand axis 0 is the batching axis: its coordinate is the result's row. -/
theorem gather_ax0 (y : IVec S4096 32) (a : Fin 4096) (u : Fin 1) :
    GD.start (ix2 a u) (val_main_call1_v5 (F := Ideal) y) (0 : Fin S4096x32000.rank)
      + GD.batchCoord (ix2 a u) (0 : Fin S4096x32000.rank) + GD.offCoord (ix2 a u) (0 : Fin S4096x32000.rank) = a.val := by
  have hb : (0 : Fin S4096x32000.rank) ∈ GD.operandBatchingDims := List.mem_singleton.mpr rfl
  rw [GD.start_batching _ _ _ hb, GD.offCoord_eq_zero _ _ (fun h => ((GD.mem_sKept _).mp h).2 hb), Nat.zero_add,
    Nat.add_zero]
  rfl

/-- Operand axis 1 is collapsed and named by the start index map: its coordinate is the label, read signed and
    clamped into the row, which a label in range survives unchanged. -/
theorem gather_ax1 (y : IVec S4096 32) (hy : Cert.Loss.InRange y) (a : Fin 4096) (u : Fin 1) :
    GD.start (ix2 a u) (val_main_call1_v5 (F := Ideal) y) (1 : Fin S4096x32000.rank)
      + GD.batchCoord (ix2 a u) (1 : Fin S4096x32000.rank) + GD.offCoord (ix2 a u) (1 : Fin S4096x32000.rank)
      = Yc y a.val := by
  have hnb : (1 : Fin S4096x32000.rank) ∉ GD.operandBatchingDims := by decide
  have hc : (1 : Fin S4096x32000.rank) ∈ GD.collapsedSliceDims := List.mem_singleton.mpr rfl
  have hm : (1 : Fin S4096x32000.rank) ∈ GD.startIndexMap := List.mem_singleton.mpr rfl
  rw [GD.batchCoord_eq_zero _ _ hnb, GD.offCoord_eq_zero _ _ (fun h => ((GD.mem_sKept _).mp h).1 hc), Nat.add_zero]
  unfold GatherDims.start
  rw [dif_pos hm]
  have hsi : GD.siIdx (ix2 a u) ⟨List.idxOf (1 : Fin S4096x32000.rank) GD.startIndexMap,
      List.idxOf_lt_length_iff.2 hm⟩ = ix3 a u (0 : Fin 1) := by
    funext b; refine Fin.ext ?_
    match b with
    | ⟨0, _⟩ => rfl
    | ⟨1, _⟩ => rfl
    | ⟨2, _⟩ => rfl
  rw [hsi, start_idx y hy]
  show min (y (ix1 a)).toInt.toNat (32000 - 1) = Yc y a.val
  unfold Yc
  rw [dif_pos a.isLt]
  show min (y (ix1 a)).toInt.toNat (32000 - 1) = (y (ix1 a)).toNat
  have h1 := hy (ix1 a)
  have h2 := BitVec.toInt_eq_toNat_cond (y (ix1 a))
  have h3 := (y (ix1 a)).isLt
  split_ifs at h2 <;> omega

/-- Result entry (a, 0) of the batched gather is the log-soft-max at row `a`, column y_a. -/
theorem gather_entry (y : IVec S4096 32) (hy : Cert.Loss.InRange y) (p : FVec Ideal S4096x32000 .f32) (a : Fin 4096)
    (u : Fin 1) :
    val_main_call1_v13 (F := Ideal) y p (ix2 a u)
      = val_main_v0 (F := Ideal) p (ix2 a ⟨Yc y a.val, hy.Yc_lt a.val⟩) := by
  unfold val_main_call1_v13 Host.gather
  congr 1
  funext d
  refine Fin.ext ?_
  show GD.start (ix2 a u) (val_main_call1_v5 (F := Ideal) y) d + GD.batchCoord (ix2 a u) d + GD.offCoord (ix2 a u) d = _
  match d with
  | ⟨0, _⟩ => exact gather_ax0 y a u
  | ⟨1, _⟩ => exact gather_ax1 y hy a u

/-! ## The two host sums and the result -/

theorem idx_v5_main (a : Fin 4096) : idx_main_v5 (ix1 a) = ix2 a (0 : Fin 1) := by
  funext d
  match d with
  | ⟨0, _⟩ =>
    refine Fin.ext ?_
    show a.val / 1 = a.val
    exact Nat.div_one _
  | ⟨1, _⟩ => rfl

/-- Row a's picked entry: the log-soft-max at the label's column (the fill value is never selected). -/
theorem picked_entry (y : IVec S4096 32) (hy : Cert.Loss.InRange y) (p : FVec Ideal S4096x32000 .f32)
    (hp : Cert.Loss.Finite p) (a : Fin 4096) :
    val_main_v5 (F := Ideal) y p (ix1 a) = ((Xr p a (Yc y a) - lse (Xr p a) 32000 : ℝ) : EReal) := by
  rw [val_main_v5_apply, idx_v5_main, val_main_v4_apply, v12_one y hy, select_one, gather_entry y hy p a 0,
    logp_entry p hp a ⟨Yc y a.val, hy.Yc_lt a.val⟩]

/-- The sum over the rows of the picked entries. -/
theorem v6_eq (y : IVec S4096 32) (hy : Cert.Loss.InRange y) (p : FVec Ideal S4096x32000 .f32)
    (hp : Cert.Loss.Finite p) (i : S_.Idx) :
    val_main_v6 (F := Ideal) y p i
      = ((∑ a ∈ range 4096, (Xr p a (Yc y a) - lse (Xr p a) 32000) : ℝ) : EReal) := by
  rw [val_main_v6_apply]
  have h0 : (val_main_cst_1 (F := Ideal)) (Shape.Idx.first h_S_) = 0 := Ideal.ofBits_zero_f32
  rw [h0, zero_add, ← Equiv.sum_comp (idxEquiv1 (n := 4096)).symm,
    Finset.sum_range (fun a => Xr p a (Yc y a) - lse (Xr p a) 32000), ← Cert.Loss.coe_sum]
  exact Finset.sum_congr rfl fun a _ => picked_entry y hy p hp a

end Stages

theorem val_eq_total (y : IVec S4096 32) (p : FVec Ideal S4096x32000 .f32)
    (hp : Cert.Loss.Finite p) (hy : Cert.Loss.InRange y) :
    Cert.ReferenceIdeal.ReadP.val_main_v8 (F := Ideal) y p = fun _ => ((Cert.Loss.total y p : ℝ) : EReal) := by
  funext i
  rw [ReadP.val_main_v8_apply, ReadP.val_main_v2_apply, ReadP.val_main_v7_apply, ReadP.val_main_cst_0_apply,
    ReadP.val_main_cst_2_apply, v1_eq p hp i, v6_eq y hy p hp i, Ideal.addf_def, Ideal.mulf_def, Ideal.mulf_def]
  show Ideal.ofBits .f32 0x3651B717#32 * _ + Ideal.ofBits .f32 0x3F666666#32 * _ = _
  rw [Cert.Loss.ofBits_c₁, Cert.Loss.ofBits_c₂, ← EReal.coe_mul, ← EReal.coe_mul, ← EReal.coe_add]
  congr 1
  unfold Cert.Loss.total
  exact (Cert.Loss.total_eq Cert.Loss.c₁ Cert.Loss.c₂ 4096 32000 (Cert.Loss.Xr p) (Cert.Loss.Yc y)).symm

end Cert.ReferenceIdeal.LossRef

end
-- ==== Proof.PreFacts.lean ====
/-
  What the precondition says of the two argument arrays: every logit is a real number (|p| < +∞ entrywise) and every
  label is a column number (0 ≤ y < 32000 entrywise).
-/
import proofs.«423546_j42984032699180_2_alg».proof.Pre_finite_inputs
import proofs.«423546_j42984032699180_2_alg».proof.Proof.Spec
import Idealize.ShloMosaic.Lib.ReduceAll
import Idealize.ShloMosaic.Lib.StableHlo.Predicate

noncomputable section

namespace Cert.Loss

open Idealize.ShloMosaic Idealize.ShloMosaic.ValueIdx

/-- The pattern of `+∞`. -/
theorem ofBits_pos_inf : Ideal.ofBits .f32 0x7F800000#32 = ⊤ := by
  simp [Ideal.ofBits, Ideal.ieee]

/-- An extended real whose absolute value `max x (-x)` is below `+∞` is a real number. -/
theorem real_of_abs_lt_top (x : EReal) (h : max x (-x) < ⊤) : ∃ a : ℝ, x = (a : EReal) := by
  induction x using EReal.rec with
  | bot => simp at h
  | coe a => exact ⟨a, rfl⟩
  | top => simp at h

theorem facts_of_pre [Cert.Pre_finite_inputs.Facts] (y : IVec Cert.Pre_finite_inputs.S4096 32)
    (p : FVec Ideal Cert.Pre_finite_inputs.S4096x32000 .f32)
    (h : Cert.Pre_finite_inputs.fn (F := Ideal) y p = fun _ => 1#1) : Finite p ∧ InRange y := by
  haveI : Subsingleton Cert.Pre_finite_inputs.S_.Idx := ⟨fun a b => funext fun d => d.elim0⟩
  have h0 := congrFun h ix0
  dsimp only [Cert.Pre_finite_inputs.fn] at h0
  obtain ⟨hA, hB⟩ := IntOp.andi_eq_one.1 h0
  constructor
  · intro i
    have hi := Host.reduce_andi_all _ _ _ _ _ hA i
    have e : broadcastInDim Cert.Pre_finite_inputs.S4096x32000 ![] Cert.Pre_finite_inputs.Facts.bcast_S_S4096x32000
        (constant Cert.Pre_finite_inputs.S_ .f32 0x7F800000#32 : FVec Ideal _ _) i = (⊤ : EReal) :=
      (StableHlo.Predicate.bcast_scalar _ Cert.Pre_finite_inputs.Facts.h_S_ _ i).trans ofBits_pos_inf
    have hlt : max (p i) (-(p i)) < (⊤ : EReal) := by
      have h1 : Ideal.cmp .olt (max (p i) (-(p i))) ⊤ = 1#1 := by
        rw [← e]; exact hi
      exact of_decide_eq_true ((StableHlo.Predicate.ofBool_eq_one_iff _).1 h1)
    exact real_of_abs_lt_top _ hlt
  · intro i
    have hi := Host.reduce_andi_all _ _ _ _ _ hB i
    obtain ⟨h1, h2⟩ := IntOp.andi_eq_one.1 hi
    have e0 : broadcastInDim Cert.Pre_finite_inputs.S4096 ![] Cert.Pre_finite_inputs.Facts.bcast_S_S4096
        (constantI Cert.Pre_finite_inputs.S_ 32 0#32) i = 0#32 :=
      StableHlo.Predicate.bcast_scalar _ Cert.Pre_finite_inputs.Facts.h_S_ _ i
    have e1 : broadcastInDim Cert.Pre_finite_inputs.S4096 ![] Cert.Pre_finite_inputs.Facts.bcast_S_S4096
        (constantI Cert.Pre_finite_inputs.S_ 32 32000#32) i = 32000#32 :=
      StableHlo.Predicate.bcast_scalar _ Cert.Pre_finite_inputs.Facts.h_S_ _ i
    have g1 : IntOp.cmpi .sge (y i) 0#32 = 1#1 := by rw [← e0]; exact h1
    have g2 : IntOp.cmpi .slt (y i) 32000#32 = 1#1 := by rw [← e1]; exact h2
    have k1 := IntOp.cmpi_sge.1 g1
    have k2 := IntOp.cmpi_slt.1 g2
    have z0 : (0#32 : BitVec 32).toInt = 0 := by decide
    have z1 : (32000#32 : BitVec 32).toInt = 32000 := by decide
    rw [z0] at k1; rw [z1] at k2
    exact ⟨k1, k2⟩

end Cert.Loss

end
-- ==== Proof.Pieces.lean ====
/-
  What each control case of the row-block body leaves in its four carried accumulators and in its output block, as
  closed terms of the body's arithmetic (`Gen.k0_payN`) applied to the inputs alone.

  A row block of 1024 rows is swept in column tiles of width 3200; four column vectors are carried from tile to tile:
    the running row maximum `m`, the running exponential sum `s = ∑ exp (x - m)` (rescaled whenever `m` grows),
    the running sum of the logits, and the running logit at the label's column.
  Case A is the first tile of a row block: every accumulator is reset (to `-∞`, `0`, `0`, `0`) and then updated, so the
  update reads the reset constant back. Case B is a middle tile: the update reads what the tile before left. Case C is
  the last tile: the same update, after which the output block is computed from the four updated accumulators.

  The generated frame states each of these as "the stores the run found, read back over arbitrary prior contents".
  Every store here covers its whole buffer at offset zero, so the read-back is the last store's payload; a load of a
  whole buffer returns its contents, and a load that follows a covering store in the same run returns that store's
  payload. Nothing of the arithmetic is opened here: the statements hold at any float model `F`.
-/
import proofs.«423546_j42984032699180_2_alg».proof.Proof.Gen.KernelIdeal.Frame
import Idealize.ShloMosaic.Lib.Pipeline.Value
import Idealize.ShloMosaic.Lib.Tactic

noncomputable section

namespace Cert.KernelIdeal.LossPieces

open Idealize.ShloMosaic Idealize.ShloMosaic.TcCoe Idealize.ShloMosaic.Tactic Idealize.SL.Sem
open Cert.KernelIdeal Cert.KernelIdeal.Gen

variable {F : FTy → Type} [FloatOps F]

/-- The offset of every load and store of the body is the origin. -/
theorem hz : (![0, 0] : Fin 2 → Nat) = fun _ => 0 := funext fun a => by fin_cases a <;> rfl

/-! ## Case A: the first tile of a row block (reset, then update) -/

/-- First tile, running maximum: the accumulator is reset to `-∞` and then holds
    `max (-∞) (row maximum of the tile)`. -/
theorem sout_A_0 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x3200 .f32) (x1 : Vec F S1024x1 .i32) :
    sout0_A_0 c i arg2 harg2 arg3 harg3 arg4 harg4 arg5 harg5 arg6 harg6 arg7 harg7 arg8 harg8 hc0 hc1 x0 x1 = k0_pay2 (k0_pay8 x0 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, View.ld_unit_zero (S := S1024x1) hz, View.ld_unit_zero (S := S1024x3200) hz, View.readCov_unit_zero (S := S1024x1) _ hz]

/-- First tile, running exponential sum: reset to `0` (the maximum to `-∞`), it then holds
    `0 * exp (-∞ - m) + ∑ⱼ exp (xⱼ - m)` with `m` the new running maximum. -/
theorem sout_A_1 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x3200 .f32) (x1 : Vec F S1024x1 .i32) :
    sout0_A_1 c i arg2 harg2 arg3 harg3 arg4 harg4 arg5 harg5 arg6 harg6 arg7 harg7 arg8 harg8 hc0 hc1 x0 x1 = k0_pay9 x0 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, View.ld_unit_zero (S := S1024x1) hz, View.ld_unit_zero (S := S1024x3200) hz, View.readCov_unit_zero (S := S1024x1) _ hz]

/-- First tile, running sum of the logits: reset to `0`, it then holds `0 + ∑ⱼ xⱼ` over the tile's columns. -/
theorem sout_A_2 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x3200 .f32) (x1 : Vec F S1024x1 .i32) :
    sout0_A_2 c i arg2 harg2 arg3 harg3 arg4 harg4 arg5 harg5 arg6 harg6 arg7 harg7 arg8 harg8 hc0 hc1 x0 x1 = k0_pay10 x0 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, View.ld_unit_zero (S := S1024x1) hz, View.ld_unit_zero (S := S1024x3200) hz, View.readCov_unit_zero (S := S1024x1) _ hz]

/-- First tile, running target logit: reset to `0`, it then holds `0 + ∑ⱼ [j = y - 3200·k] xⱼ`, the entry of the
    tile at the label's column when that column lies in tile `k`, else `0`. -/
theorem sout_A_3 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x3200 .f32) (x1 : Vec F S1024x1 .i32) :
    sout0_A_3 c i arg2 harg2 arg3 harg3 arg4 harg4 arg5 harg5 arg6 harg6 arg7 harg7 arg8 harg8 hc0 hc1 x0 x1 = k0_pay1 x0 (k0_pay11 x1) (k0_pay12 i) k0_pay7 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz]
  simp only [View.readAt_eq_ld, harg2.read_unread, harg3.read_unread, View.ld_unit_zero (S := S1024x1) hz, View.ld_unit_zero (S := S1024x3200) hz, View.readCov_unit_zero (S := S1024x1) _ hz]

/-! ## Case B: a middle tile (update over what the tile before left) -/

/-- Middle tile, running maximum: over the previous maximum `xs0` it holds `max xs0 (row maximum of the tile)`. -/
theorem sout_B_0 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 hc0 hc1 x0 x1 xs0 xs1 xs2 xs3 = k0_pay2 (k0_pay8 x0 xs0) := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg5.read_unread, View.ld_unit_zero (S := S1024x1) hz, View.ld_unit_zero (S := S1024x3200) hz]

/-- Middle tile, running exponential sum: over the previous maximum `xs0` and sum `xs1` it holds
    `xs1 * exp (xs0 - m) + ∑ⱼ exp (xⱼ - m)`, rescaled to the new running maximum `m`. -/
theorem sout_B_1 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 hc0 hc1 x0 x1 xs0 xs1 xs2 xs3 = k0_pay9 x0 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg5.read_unread, harg6.read_unread, View.ld_unit_zero (S := S1024x1) hz, View.ld_unit_zero (S := S1024x3200) hz]

/-- Middle tile, running sum of the logits: `xs2 + ∑ⱼ xⱼ` over the tile's columns. -/
theorem sout_B_2 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 hc0 hc1 x0 x1 xs0 xs1 xs2 xs3 = k0_pay10 x0 xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg7.read_unread, View.ld_unit_zero (S := S1024x1) hz, View.ld_unit_zero (S := S1024x3200) hz]

/-- Middle tile, running target logit: `xs3 + ∑ⱼ [j = y - 3200·k] xⱼ`, the previous value plus the tile's entry at the
    label's column when that column lies in tile `k`. -/
theorem sout_B_3 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 hc0 hc1 x0 x1 xs0 xs1 xs2 xs3 = k0_pay1 x0 (k0_pay11 x1) (k0_pay12 i) xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg3.read_unread, harg8.read_unread, View.ld_unit_zero (S := S1024x1) hz, View.ld_unit_zero (S := S1024x3200) hz]

/-! ## Case C: the last tile (update, then the output block from the updated accumulators) -/

/-- Last tile, running maximum: over the previous maximum `xs0` it holds `max xs0 (row maximum of the tile)`. -/
theorem sout_C_0 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 hc0 hc1 x0 x1 xs0 xs1 xs2 xs3 = k0_pay2 (k0_pay8 x0 xs0) := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg5.read_unread, View.ld_unit_zero (S := S1024x1) hz, View.ld_unit_zero (S := S1024x3200) hz]

/-- Last tile, running exponential sum: over the previous maximum `xs0` and sum `xs1` it holds
    `xs1 * exp (xs0 - m) + ∑ⱼ exp (xⱼ - m)`, rescaled to the new running maximum `m`. -/
theorem sout_C_1 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 hc0 hc1 x0 x1 xs0 xs1 xs2 xs3 = k0_pay9 x0 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg5.read_unread, harg6.read_unread, View.ld_unit_zero (S := S1024x1) hz, View.ld_unit_zero (S := S1024x3200) hz]

/-- Last tile, running sum of the logits: `xs2 + ∑ⱼ xⱼ` over the tile's columns. -/
theorem sout_C_2 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 hc0 hc1 x0 x1 xs0 xs1 xs2 xs3 = k0_pay10 x0 xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg7.read_unread, View.ld_unit_zero (S := S1024x1) hz, View.ld_unit_zero (S := S1024x3200) hz]

/-- Last tile, running target logit: `xs3 + ∑ⱼ [j = y - 3200·k] xⱼ`, the previous value plus the tile's entry at the
    label's column when that column lies in tile `k`. -/
theorem sout_C_3 (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 hc0 hc1 x0 x1 xs0 xs1 xs2 xs3 = k0_pay1 x0 (k0_pay11 x1) (k0_pay12 i) xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg8.read_unread, View.ld_unit_zero (S := S1024x1) hz, View.ld_unit_zero (S := S1024x3200) hz]

/-- Last tile, the output block: from the four UPDATED accumulators — maximum `m`, exponential sum `s`, logit sum
    `t`, target logit `g` — with `lse = m + log s` it is `3.125e-6 * (t - 32000 * lse) + 0.9 * (g - lse)`: the
    label-smoothed log-likelihood of the row (smoothing mass 0.1 spread over 32000 classes). -/
theorem out_C (c : Dev nD) (i : grid0.Coords) (arg2 : Memref sig .tc .vmem S1024x3200 .f32) (harg2 : arg2.IsWhole) (arg3 : Memref sig .tc .vmem S1024x1 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x3200 .f32) (x1 : Vec F S1024x1 .i32) (xs0 : Vec F S1024x1 .f32) (xs1 : Vec F S1024x1 .f32) (xs2 : Vec F S1024x1 .f32) (xs3 : Vec F S1024x1 .f32) :
    out0_C_2 c i arg2 harg2 arg3 harg3 arg4 harg4 arg5 harg5 arg6 harg6 arg7 harg7 arg8 harg8 hc0 hc1 x0 x1 xs0 xs1 xs2 xs3 = k0_pay3 (k0_pay2 (k0_pay8 x0 xs0)) (k0_pay9 x0 xs0 xs0 xs1) (k0_pay10 x0 xs2) (k0_pay1 x0 (k0_pay11 x1) (k0_pay12 i) xs3) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1) hz, View.ld_unit_zero (S := S1024x3200) hz, View.readCov_unit_zero (S := S1024x1) _ hz]

end Cert.KernelIdeal.LossPieces
end
-- ==== Proof.Payloads.lean ====
/-
  The kernel body's arithmetic, read at one row of a 1024-row block, at the extended reals.
  Every value the body stores is a column vector [1024, 1]; its entry in row `r` depends only on row `r` of the
  tile `x0 : [1024, 3200]` and on row `r` of the accumulators:
    new maximum      max m_r (max_j x0[r, j])
    new exp-sum      l_r · exp (m_r − m'_r) + Σ_j exp (x0[r, j] − m'_r)
    new plain sum    s_r + Σ_j x0[r, j]
    new target sum   t_r + Σ_j [j = y_r − 3200 k] x0[r, j]
    the row's loss   c₁ (s_r − K (m_r + log l_r)) + c₂ (t_r − (m_r + log l_r)).
-/
import proofs.«423546_j42984032699180_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LossPay

open Idealize.ShloMosaic Idealize.ShloMosaic.ValueIdx Cert.KernelIdeal Cert.KernelIdeal.Gen

section Reading
variable {α : Type}

/-- A vector `[a]` cast to the column `[a, 1]` reads, in row `i`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over row `i` of the reduction of `[a, b]` along its lanes, the index with lane `k` put back is `(i, k)`. -/
theorem lift_row {a b : ℕ} (h : (⟨2, ![a, b]⟩ : Shape).Reduces [1] ⟨1, ![a]⟩) (i : Fin a) (k : Fin b) :
    h.lift (ix1 i) k = ix2 i k := by
  funext c
  match c with
  | ⟨0, _⟩ => rfl
  | ⟨1, _⟩ => rfl

/-- A select on the equality bit of two words is the `if` on their equality. -/
theorem select_cmpi_eq {w : ℕ} (x y : BitVec w) (A B : α) :
    Scalar.select (IntOp.cmpi .eq x y) A B = if x = y then A else B := by
  unfold Scalar.select IntOp.cmpi
  by_cases h : x = y
  · rw [if_pos h]; subst h; simp
  · rw [if_neg h, beq_eq_false_iff_ne.mpr h]
    show (if BitVec.ofBool false = 1#1 then A else B) = B
    exact if_neg (by decide)

end Reading

/-- The lane counter along axis 1 of a tile reads, at `(r, j)`, the word of `j`. -/
theorem iota_lane_apply (h : S1024x3200.Iotas .tc 32 [1]) (r : Fin 1024) (j : Fin 3200) :
    iota .tc S1024x3200 32 [1] h (ix2 r j) = BitVec.ofNat 32 j.val := by
  show BitVec.ofNat 32 (0 * 3200 + j.val) = _
  rw [Nat.zero_mul, Nat.zero_add]

/-- The largest entry of row `r` of a tile, folded from the pattern of `-∞`. -/
def tileMax (x0 : Vec Ideal S1024x3200 .f32) (r : Fin 1024) : EReal :=
  (Finset.univ : Finset (Fin 3200)).fold max (Ideal.ofBits .f32 0xFF800000#32) (fun j => x0 (ix2 r j))

/-- The lane maximum of a tile, as a column, read in row `r`. -/
theorem rowMax_apply (x0 : Vec Ideal S1024x3200 .f32) (hφ : FKind.Formats .f32)
    (hacc : (0xFF800000#32 : BitVec 32) = FKind.maximumf.neutral .f32 hφ) (r : Fin 1024) :
    shapeCast S1024x1 (multiReduction (F := Ideal) .maximumf [1] S1024 x0 0xFF800000#32 reduces_S1024x3200_S1024 hφ hacc)
      shapeCasts_S1024_S1024x1 (ix2 r (0 : Fin 1)) = tileMax x0 r := by
  refine (shapeCast_a_a1_apply _ _ r 0).trans ?_
  refine (Ideal.multiReduction_maximumf_single x0 _ reduces_S1024x3200_S1024 hφ hacc (ix1 r)).trans ?_
  have e : (fun k : Fin 3200 => x0 (reduces_S1024x3200_S1024.lift (ix1 r) k)) = fun k => x0 (ix2 r k) :=
    funext fun k => congrArg x0 (lift_row reduces_S1024x3200_S1024 r k)
  exact congrArg (fun f => (Finset.univ : Finset (Fin 3200)).fold max (Ideal.ofBits .f32 0xFF800000#32) f) e

/-- The lane sum of a tile-shaped value, as a column, read in row `r`. -/
theorem rowSum_apply (x : FVec Ideal S1024x3200 .f32) (hφ : FKind.Formats .f32)
    (hacc : (0x00000000#32 : BitVec 32) = FKind.add.neutral .f32 hφ) (r : Fin 1024) :
    shapeCast S1024x1 (multiReduction (F := Ideal) .add [1] S1024 x 0x00000000#32 reduces_S1024x3200_S1024 hφ hacc)
      shapeCasts_S1024_S1024x1 (ix2 r (0 : Fin 1)) = ∑ j : Fin 3200, x (ix2 r j) := by
  refine (shapeCast_a_a1_apply _ _ r 0).trans ?_
  refine (Ideal.multiReduction_add_single x _ reduces_S1024x3200_S1024 hφ hacc (ix1 r)).trans ?_
  show ∑ k : Fin 3200, _ = _
  exact Finset.sum_congr rfl fun k _ => congrArg x (lift_row reduces_S1024x3200_S1024 r k)

theorem pay8_apply (x0 : Vec Ideal S1024x3200 .f32) (mo : Vec Ideal S1024x1 .f32) (r : Fin 1024) :
    k0_pay8 (F := Ideal) x0 mo (ix2 r (0 : Fin 1)) = max (mo (ix2 r 0)) (tileMax x0 r) := by
  unfold k0_pay8
  refine (maximumf_apply _ _ _).trans ?_
  exact congrArg (max (mo (ix2 r 0))) (rowMax_apply x0 _ _ r)

theorem pay2_eq (v : FVec Ideal S1024x1 .f32) : k0_pay2 (F := Ideal) v = v := by
  unfold k0_pay2
  exact shapeCast_self v _

theorem pay9_apply (x0 : Vec Ideal S1024x3200 .f32) (v6 v8 v14 : Vec Ideal S1024x1 .f32) (r : Fin 1024) :
    k0_pay9 (F := Ideal) x0 v6 v8 v14 (ix2 r (0 : Fin 1))
      = v14 (ix2 r 0) * Ideal.exp (v8 (ix2 r 0) - max (v6 (ix2 r 0)) (tileMax x0 r))
        + ∑ j : Fin 3200, Ideal.exp (x0 (ix2 r j) - max (v6 (ix2 r 0)) (tileMax x0 r)) := by
  unfold k0_pay9
  rw [shapeCast_self]
  refine (addf_apply _ _ _).trans ?_
  refine congrArg₂ (· + ·) ?_ ?_
  · show v14 (ix2 r 0) * Ideal.exp (v8 (ix2 r 0) - k0_pay8 (F := Ideal) x0 v6 (ix2 r 0)) = _
    rw [pay8_apply]
  · refine (rowSum_apply _ _ _ r).trans ?_
    refine Finset.sum_congr rfl fun j _ => ?_
    show Ideal.exp (x0 (ix2 r j)
      - broadcastTo S1024x3200 (k0_pay8 (F := Ideal) x0 v6) broadcasts_S1024x1_S1024x3200 (ix2 r j)) = _
    rw [broadcastTo_a1_ab_apply, pay8_apply]

theorem pay10_apply (x0 : Vec Ideal S1024x3200 .f32) (v22 : Vec Ideal S1024x1 .f32) (r : Fin 1024) :
    k0_pay10 (F := Ideal) x0 v22 (ix2 r (0 : Fin 1)) = v22 (ix2 r 0) + ∑ j : Fin 3200, x0 (ix2 r j) := by
  unfold k0_pay10
  rw [shapeCast_self]
  refine (addf_apply _ _ _).trans ?_
  exact congrArg (v22 (ix2 r 0) + ·) (rowSum_apply x0 _ _ r)

theorem pay1_apply (x0 : Vec Ideal S1024x3200 .f32) (v30 v32 : IVec S1024x1 32) (v37 : Vec Ideal S1024x1 .f32) (r : Fin 1024) :
    k0_pay1 (F := Ideal) x0 v30 v32 v37 (ix2 r (0 : Fin 1))
      = v37 (ix2 r 0) + ∑ j : Fin 3200, (if BitVec.ofNat 32 j.val = v30 (ix2 r 0) - v32 (ix2 r 0) then x0 (ix2 r j) else 0) := by
  unfold k0_pay1
  rw [shapeCast_self]
  refine (addf_apply _ _ _).trans ?_
  refine congrArg (v37 (ix2 r 0) + ·) ?_
  refine (rowSum_apply _ _ _ r).trans ?_
  refine Finset.sum_congr rfl fun j _ => ?_
  show Scalar.select (IntOp.cmpi .eq (iota .tc S1024x3200 32 [1] iota_S1024x3200_d1_w32 (ix2 r j))
      (broadcastTo S1024x3200 (subi v30 v32) broadcasts_S1024x1_S1024x3200 (ix2 r j)))
      (x0 (ix2 r j)) (Ideal.ofBits .f32 0x00000000#32) = _
  rw [select_cmpi_eq, iota_lane_apply, broadcastTo_a1_ab_apply, Ideal.ofBits_zero_f32]
  rfl

theorem pay3_apply (v52 v53 v56 v62 : Vec Ideal S1024x1 .f32) (r : Fin 1024) :
    k0_pay3 (F := Ideal) v52 v53 v56 v62 (ix2 r (0 : Fin 1))
      = Ideal.ofBits .f32 0x3651B717#32
          * (v56 (ix2 r 0) - Ideal.ofBits .f32 0x46FA0000#32 * (v52 (ix2 r 0) + Ideal.log (v53 (ix2 r 0))))
        + Ideal.ofBits .f32 0x3F666666#32 * (v62 (ix2 r 0) - (v52 (ix2 r 0) + Ideal.log (v53 (ix2 r 0)))) := by
  rfl

theorem pay4_apply (r : Fin 1024) : k0_pay4 (F := Ideal) (ix2 r (0 : Fin 1)) = Ideal.ofBits .f32 0xFF800000#32 := by
  unfold k0_pay4
  rw [shapeCast_self]
  rfl
theorem pay5_apply (r : Fin 1024) : k0_pay5 (F := Ideal) (ix2 r (0 : Fin 1)) = Ideal.ofBits .f32 0x00000000#32 := by
  unfold k0_pay5
  rw [shapeCast_self]
  rfl
theorem pay6_apply (r : Fin 1024) : k0_pay6 (F := Ideal) (ix2 r (0 : Fin 1)) = Ideal.ofBits .f32 0x00000000#32 := by
  unfold k0_pay6
  rw [shapeCast_self]
  rfl
theorem pay7_apply (r : Fin 1024) : k0_pay7 (F := Ideal) (ix2 r (0 : Fin 1)) = Ideal.ofBits .f32 0x00000000#32 := by
  unfold k0_pay7
  rw [shapeCast_self]
  rfl

theorem pay11_eq (v29 : Vec Ideal S1024x1 .i32) : k0_pay11 (F := Ideal) v29 = v29 := by
  unfold k0_pay11
  exact shapeCast_self v29 _

theorem pay12_apply (i : grid0.Coords) (r : Fin 1024) :
    k0_pay12 i (ix2 r (0 : Fin 1)) = BitVec.ofNat 32 (i 1).val * 3200#32 := by
  rfl

end Cert.KernelIdeal.LossPay

end
-- ==== Proof.Blocks.lean ====
/-
  The blocks the body reads at a grid point, as entries of the argument arrays.
  The grid has 4 row blocks of 1024 rows by 10 column tiles of 3200 columns; point `t` is row block `t / 10`, tile
  `t % 10`. The tile of logits at `t` is rows `1024 (t / 10) + r`, columns `3200 (t % 10) + j` of the logits; the label
  block at `t` is rows `1024 (t / 10) + r` of the labels (the host reshapes them to a column first).
-/
import proofs.«423546_j42984032699180_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.LossBlocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The tile of logits at point `t`. -/
abbrev xblk (c : Dev nD) (t : Fin cfg0.N) : Vec F S1024x3200 .f32 := iblk m c 0 t
/-- The block of labels at point `t`. -/
abbrev yblk (c : Dev nD) (t : Fin cfg0.N) : Vec F S1024x1 .i32 := iblk m c 1 t

/-- Point `t` is row block `t / 10`, tile `t % 10`. -/
theorem coords_eq (t : Fin cfg0.N) : (grid0.coords t 0).val = t.val / 10 ∧ (grid0.coords t 1).val = t.val % 10 :=
  (by decide +kernel : ∀ t : Fin grid0.N, (grid0.coords t 0).val = t.val / 10 ∧ (grid0.coords t 1).val = t.val % 10) t

/-- Entry `(r, j)` of the tile at point `t` is logit `(1024 (t / 10) + r, 3200 (t % 10) + j)`. -/
theorem xblk_apply (c : Dev nD) (t : Fin cfg0.N) (r : Fin 1024) (j : Fin 3200)
    (hr : 1024 * (t.val / 10) + r.val < 4096) (hj : 3200 * (t.val % 10) + j.val < 32000) :
    xblk m c t (ix2 r j) = m ((c : Thread nD τ).loc main_arg1) (ix2 ⟨1024 * (t.val / 10) + r.val, hr⟩ ⟨3200 * (t.val % 10) + j.val, hj⟩) := by
  have hi := (by decide +kernel : ∀ t : Fin grid0.N, win0_0.index t 0 = t.val / 10 ∧ win0_0.index t 1 = t.val % 10) t
  unfold xblk iblk
  rw [View.read_apply]
  show V m c main_arg1 _ = _
  rw [V_main_arg1]
  congr 1
  funext a
  apply Fin.ext
  match a with
  | ⟨0, _⟩ => show win0_0.index t 0 * 1024 + 1 * r.val = 1024 * (t.val / 10) + r.val; rw [hi.1]; omega
  | ⟨1, _⟩ => show win0_0.index t 1 * 3200 + 1 * j.val = 3200 * (t.val % 10) + j.val; rw [hi.2]; omega

/-- The column of labels the region finds is the host's reshape of the label vector. -/
theorem V_main_v0 (c : Dev nD) :
    (V m c main_v0 : S4096x1.Idx → BitVec 32) = shapeCast S4096x1 (m ((c : Thread nD τ).loc main_arg0)) shapeCasts_S4096_S4096x1 := by
  show StableHlo.after hostOps0 (fun b => m (c, b)) (Proc.devRef .tc main_v0) = _
  after_results
  rfl

/-- Entry `(r, 0)` of the label block at point `t` is label `1024 (t / 10) + r`. -/
theorem yblk_apply (c : Dev nD) (t : Fin cfg0.N) (r : Fin 1024) (hr : 1024 * (t.val / 10) + r.val < 4096) :
    yblk m c t (ix2 r (0 : Fin 1)) = m ((c : Thread nD τ).loc main_arg0) (ix1 ⟨1024 * (t.val / 10) + r.val, hr⟩) := by
  have hi := (by decide +kernel : ∀ t : Fin grid0.N, win0_1.index t 0 = t.val / 10 ∧ win0_1.index t 1 = 0) t
  unfold yblk iblk
  rw [View.read_apply]
  show V m c main_v0 _ = _
  rw [V_main_v0]
  refine shapeCast_apply (s := S4096) (t := S4096x1) (m ((c : Thread nD τ).loc main_arg0)) shapeCasts_S4096_S4096x1 _ (ix1 ⟨1024 * (t.val / 10) + r.val, hr⟩) ?_
  rw [Shape.rowMajor_val_one, Shape.rowMajor_val_two]
  show 1024 * (t.val / 10) + r.val = (win0_1.index t 0 * 1024 + 1 * r.val) * 1 + (win0_1.index t 1 * 1 + 1 * 0)
  rw [hi.1, hi.2]
  omega

end Cert.KernelIdeal.LossBlocks

end
-- ==== Proof.KernelInv.lean ====
/-
  The kernel's accumulators, row by row, over the grid.
  The grid has 4 row blocks of 1024 rows by 10 column tiles of 3200 columns; point `t` is row block `t / 10`, tile
  `t % 10`. After point `t`, row `r` of the four carried column vectors holds the online pass's state of global row
  `1024 (t / 10) + r` after its first `3200 (t % 10 + 1)` columns (`Cert.Loss.RowState`): by induction on the point,
  a row block's first tile from the reset, every later tile from the tile before. At a row block's last tile the
  output block's row `r` is therefore that row's term of the loss.
-/
import proofs.«423546_j42984032699180_2_alg».proof.Proof.Pieces
import proofs.«423546_j42984032699180_2_alg».proof.Proof.Payloads
import proofs.«423546_j42984032699180_2_alg».proof.Proof.Blocks
import proofs.«423546_j42984032699180_2_alg».proof.Proof.Spec
import Idealize.ShloMosaic.Lib.Pipeline.Value
import Idealize.ShloMosaic.Lib.StableHlo.Run

noncomputable section

namespace Cert.KernelIdeal.LossInv

open Idealize.ShloMosaic Idealize.ShloMosaic.TcCoe Idealize.SL.Sem Idealize.ShloMosaic.ValueIdx
open Cert.KernelIdeal Cert.KernelIdeal.Gen Cert.Loss Cert.KernelIdeal.LossPay Cert.KernelIdeal.LossPieces Cert.KernelIdeal.LossBlocks

/-! ## One tile of one row, over variables -/

/-- The target-column test of the body, `j = y − 3200 k` on 32-bit words, is `3200 k + j = y` on numbers when the label
    is a column number and `k` a tile number. -/
theorem hit_iff (yv : BitVec 32) (hyv : yv.toNat < 32000) (k : ℕ) (hk : k < 10) (j : Fin 3200) :
    (BitVec.ofNat 32 j.val = yv - BitVec.ofNat 32 k * 3200#32) ↔ 3200 * k + j.val = yv.toNat := by
  have hj := j.isLt
  constructor
  · intro h
    have h2 := congrArg BitVec.toNat h
    simp only [BitVec.toNat_ofNat, BitVec.toNat_sub, BitVec.toNat_mul] at h2
    omega
  · intro h
    apply BitVec.eq_of_toNat_eq
    simp only [BitVec.toNat_ofNat, BitVec.toNat_sub, BitVec.toNat_mul]
    omega

/-- ONE TILE: from the state of a row after `n = 3200 k` columns, the four payloads of the body at row `r` are the state
    after `n + 3200` columns. -/
theorem tile_step {g : ℕ → ℝ} {yc : ℕ} (hyc : yc < 32000) (i : grid0.Coords) (hk : (i 1).val < 10)
    (x0 : Vec Ideal S1024x3200 .f32) (x1 : Vec Ideal S1024x1 .i32) (xs0 xs1 xs2 xs3 : Vec Ideal S1024x1 .f32) (r : Fin 1024)
    (hx : ∀ j : Fin 3200, x0 (ix2 r j) = ((g (3200 * (i 1).val + j.val) : ℝ) : EReal))
    (hy1 : (x1 (ix2 r (0 : Fin 1))).toNat = yc)
    (h : RowState g yc (3200 * (i 1).val) (xs0 (ix2 r 0)) (xs1 (ix2 r 0)) (xs2 (ix2 r 0)) (xs3 (ix2 r 0))) :
    RowState g yc (3200 * (i 1).val + 3200)
      (k0_pay2 (F := Ideal) (k0_pay8 x0 xs0) (ix2 r 0)) (k0_pay9 (F := Ideal) x0 xs0 xs0 xs1 (ix2 r 0))
      (k0_pay10 (F := Ideal) x0 xs2 (ix2 r 0)) (k0_pay1 (F := Ideal) x0 (k0_pay11 x1) (k0_pay12 i) xs3 (ix2 r 0)) := by
  rw [pay2_eq, pay8_apply, pay9_apply, pay10_apply, pay1_apply, pay11_eq, pay12_apply]
  unfold tileMax
  rw [ofBits_neg_inf]
  exact h.step (k := 3199) (fun j : Fin 3200 => x0 (ix2 r j)) hx
    (fun j : Fin 3200 => BitVec.ofNat 32 j.val = x1 (ix2 r 0) - BitVec.ofNat 32 (i 1).val * 3200#32)
    (fun j => by
      rw [hit_iff (x1 (ix2 r 0)) (by rw [hy1]; exact hyc) (i 1).val hk j, hy1])

variable (m : (ℓ : Loc nD τ sig) → Buf (Elt Ideal) ℓ)

/-! ## The induction over the grid -/

/-- Row `i`'s term of the loss, as an extended real. -/
def rowVal (c : Dev nD) (i : ℕ) : EReal :=
  ((rowLoss c₁ c₂ (Xr (m ((c : Thread nD τ).loc main_arg1)) i) 32000 (Yc (m ((c : Thread nD τ).loc main_arg0)) i) : ℝ) : EReal)

/-- The row of logits and the label the body sees at point `t`, row `r`: real entries, a label in range. -/
theorem tile_data (c : Dev nD) (hp : Finite (m ((c : Thread nD τ).loc main_arg1))) (t : Fin cfg0.N) (r : Fin 1024) :
    (∀ j : Fin 3200, xblk m c t (ix2 r j)
        = ((Xr (m ((c : Thread nD τ).loc main_arg1)) (1024 * (t.val / 10) + r.val) (3200 * (grid0.coords t 1).val + j.val) : ℝ) : EReal))
    ∧ (yblk m c t (ix2 r (0 : Fin 1))).toNat = Yc (m ((c : Thread nD τ).loc main_arg0)) (1024 * (t.val / 10) + r.val) := by
  have hN : t.val < 40 := lt_of_lt_of_eq t.isLt (show cfg0.N = 40 from N_0)
  have hr : 1024 * (t.val / 10) + r.val < 4096 := by have := r.isLt; omega
  have hc1 : (grid0.coords t 1).val = t.val % 10 := (coords_eq t).2
  constructor
  · intro j
    have hj : 3200 * (t.val % 10) + j.val < 32000 := by have := j.isLt; omega
    rw [xblk_apply m c t r j hr hj, hc1]
    exact hp.eq_Xr ⟨_, hr⟩ ⟨_, hj⟩
  · rw [yblk_apply m c t r hr]
    unfold Yc
    rw [dif_pos hr]

/-- What the four accumulators hold after point `t`, as payloads of what they held before. -/
structure Updated (c : Dev nD) (t : Fin cfg0.N) (xs0 xs1 xs2 xs3 : Vec Ideal S1024x1 .f32) : Prop where
  e0 : (outsAt0 m c t.val t.isLt).2.1 = k0_pay2 (F := Ideal) (k0_pay8 (xblk m c t) xs0)
  e1 : (outsAt0 m c t.val t.isLt).2.2.1 = k0_pay9 (F := Ideal) (xblk m c t) xs0 xs0 xs1
  e2 : (outsAt0 m c t.val t.isLt).2.2.2.1 = k0_pay10 (F := Ideal) (xblk m c t) xs2
  e3 : (outsAt0 m c t.val t.isLt).2.2.2.2 = k0_pay1 (F := Ideal) (xblk m c t) (k0_pay11 (yblk m c t)) (k0_pay12 (grid0.coords t)) xs3

/-- A row block's first tile updates the reset constants. -/
theorem updated_A (c : Dev nD) (t : Fin cfg0.N) (h0 : t.val % 10 = 0) :
    Updated m c t (k0_pay4 (F := Ideal)) (k0_pay5 (F := Ideal)) (k0_pay6 (F := Ideal)) (k0_pay7 (F := Ideal)) := by
  have h1 : ¬t.val % 10 = 9 := by omega
  refine ⟨?_, ?_, ?_, ?_⟩
  · rw [outsAt0_A m c t h0 h1]; dsimp only
    exact sout_A_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t) (yblk m c t)
  · rw [outsAt0_A m c t h0 h1]; dsimp only
    exact sout_A_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t) (yblk m c t)
  · rw [outsAt0_A m c t h0 h1]; dsimp only
    exact sout_A_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t) (yblk m c t)
  · rw [outsAt0_A m c t h0 h1]; dsimp only
    exact sout_A_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (xblk m c t) (yblk m c t)

/-- What the point before `t` left in the four accumulators. -/
abbrev prev (c : Dev nD) (t : Fin cfg0.N) :=
  outsAt0 m c (t.val - 1) (Nat.lt_of_le_of_lt (Nat.sub_le _ _) t.isLt)

/-- A middle tile updates what the tile before left. -/
theorem updated_B (c : Dev nD) (t : Fin cfg0.N) (h0 : ¬t.val % 10 = 0) (h1 : ¬t.val % 10 = 9) :
    Updated m c t (prev m c t).2.1 (prev m c t).2.2.1 (prev m c t).2.2.2.1 (prev m c t).2.2.2.2 := by
  refine ⟨?_, ?_, ?_, ?_⟩
  · rw [outsAt0_B m c t h0 h1]; dsimp only
    exact sout_B_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (yblk m c t) (prev m c t).2.1 (prev m c t).2.2.1 (prev m c t).2.2.2.1 (prev m c t).2.2.2.2
  · rw [outsAt0_B m c t h0 h1]; dsimp only
    exact sout_B_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (yblk m c t) (prev m c t).2.1 (prev m c t).2.2.1 (prev m c t).2.2.2.1 (prev m c t).2.2.2.2
  · rw [outsAt0_B m c t h0 h1]; dsimp only
    exact sout_B_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (yblk m c t) (prev m c t).2.1 (prev m c t).2.2.1 (prev m c t).2.2.2.1 (prev m c t).2.2.2.2
  · rw [outsAt0_B m c t h0 h1]; dsimp only
    exact sout_B_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (xblk m c t) (yblk m c t) (prev m c t).2.1 (prev m c t).2.2.1 (prev m c t).2.2.2.1 (prev m c t).2.2.2.2

/-- A row block's last tile updates what the tile before left, too. -/
theorem updated_C (c : Dev nD) (t : Fin cfg0.N) (h0 : ¬t.val % 10 = 0) (h1 : t.val % 10 = 9) :
    Updated m c t (prev m c t).2.1 (prev m c t).2.2.1 (prev m c t).2.2.2.1 (prev m c t).2.2.2.2 := by
  refine ⟨?_, ?_, ?_, ?_⟩
  · rw [outsAt0_C m c t h0 h1]; dsimp only
    exact sout_C_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (yblk m c t) (prev m c t).2.1 (prev m c t).2.2.1 (prev m c t).2.2.2.1 (prev m c t).2.2.2.2
  · rw [outsAt0_C m c t h0 h1]; dsimp only
    exact sout_C_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (yblk m c t) (prev m c t).2.1 (prev m c t).2.2.1 (prev m c t).2.2.2.1 (prev m c t).2.2.2.2
  · rw [outsAt0_C m c t h0 h1]; dsimp only
    exact sout_C_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (yblk m c t) (prev m c t).2.1 (prev m c t).2.2.1 (prev m c t).2.2.2.1 (prev m c t).2.2.2.2
  · rw [outsAt0_C m c t h0 h1]; dsimp only
    exact sout_C_3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (yblk m c t) (prev m c t).2.1 (prev m c t).2.2.1 (prev m c t).2.2.2.1 (prev m c t).2.2.2.2

/-- At a row block's last tile the output block is the closing expression of the four UPDATED accumulators. -/
theorem out_C_eq (c : Dev nD) (t : Fin cfg0.N) (h0 : ¬t.val % 10 = 0) (h1 : t.val % 10 = 9) :
    (outsAt0 m c t.val t.isLt).1 = k0_pay3 (F := Ideal) (outsAt0 m c t.val t.isLt).2.1 (outsAt0 m c t.val t.isLt).2.2.1
      (outsAt0 m c t.val t.isLt).2.2.2.1 (outsAt0 m c t.val t.isLt).2.2.2.2 := by
  have hu := updated_C m c t h0 h1
  rw [hu.e0, hu.e1, hu.e2, hu.e3]
  rw [outsAt0_C m c t h0 h1]; dsimp only
  exact out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (xblk m c t) (yblk m c t) (prev m c t).2.1 (prev m c t).2.2.1 (prev m c t).2.2.2.1 (prev m c t).2.2.2.2

/-- One point of the grid: if row `r` of what the accumulators held before is the row's state after `3200 (t % 10)`
    columns, row `r` of what they hold after is its state after `3200 (t % 10) + 3200`. -/
theorem point_step (c : Dev nD) (hp : Finite (m ((c : Thread nD τ).loc main_arg1))) (hy : InRange (m ((c : Thread nD τ).loc main_arg0)))
    (t : Fin cfg0.N) {xs0 xs1 xs2 xs3 : Vec Ideal S1024x1 .f32} (hu : Updated m c t xs0 xs1 xs2 xs3) (r : Fin 1024)
    (h : RowState (Xr (m ((c : Thread nD τ).loc main_arg1)) (1024 * (t.val / 10) + r.val)) (Yc (m ((c : Thread nD τ).loc main_arg0)) (1024 * (t.val / 10) + r.val))
      (3200 * (t.val % 10)) (xs0 (ix2 r 0)) (xs1 (ix2 r 0)) (xs2 (ix2 r 0)) (xs3 (ix2 r 0))) :
    RowState (Xr (m ((c : Thread nD τ).loc main_arg1)) (1024 * (t.val / 10) + r.val)) (Yc (m ((c : Thread nD τ).loc main_arg0)) (1024 * (t.val / 10) + r.val))
      (3200 * (t.val % 10) + 3200)
      ((outsAt0 m c t.val t.isLt).2.1 (ix2 r (0 : Fin 1))) ((outsAt0 m c t.val t.isLt).2.2.1 (ix2 r (0 : Fin 1)))
      ((outsAt0 m c t.val t.isLt).2.2.2.1 (ix2 r (0 : Fin 1))) ((outsAt0 m c t.val t.isLt).2.2.2.2 (ix2 r (0 : Fin 1))) := by
  have hN : t.val < 40 := lt_of_lt_of_eq t.isLt (show cfg0.N = 40 from N_0)
  have hc1 : (grid0.coords t 1).val = t.val % 10 := (coords_eq t).2
  obtain ⟨hx, hy1⟩ := tile_data m c hp t r
  rw [hu.e0, hu.e1, hu.e2, hu.e3, ← hc1]
  rw [← hc1] at h
  exact tile_step (hy.Yc_lt _) (grid0.coords t) (by rw [hc1]; omega) (xblk m c t) (yblk m c t) xs0 xs1 xs2 xs3 r hx hy1 h

/-- After point `n`, row `r` of the carried accumulators is the state of global row `1024 (n / 10) + r` after its first
    `3200 (n % 10 + 1)` columns. -/
theorem inv (c : Dev nD) (hp : Finite (m ((c : Thread nD τ).loc main_arg1))) (hy : InRange (m ((c : Thread nD τ).loc main_arg0))) :
    ∀ (n : ℕ) (h : n < cfg0.N) (r : Fin 1024),
      RowState (Xr (m ((c : Thread nD τ).loc main_arg1)) (1024 * (n / 10) + r.val)) (Yc (m ((c : Thread nD τ).loc main_arg0)) (1024 * (n / 10) + r.val))
        (3200 * (n % 10) + 3200)
        ((outsAt0 m c n h).2.1 (ix2 r (0 : Fin 1))) ((outsAt0 m c n h).2.2.1 (ix2 r (0 : Fin 1)))
        ((outsAt0 m c n h).2.2.2.1 (ix2 r (0 : Fin 1))) ((outsAt0 m c n h).2.2.2.2 (ix2 r (0 : Fin 1))) := by
  intro n
  induction n with
  | zero =>
    intro h r
    refine point_step m c hp hy ⟨0, h⟩ (updated_A m c ⟨0, h⟩ rfl) r ?_
    rw [pay4_apply, pay5_apply, pay6_apply, pay7_apply, ofBits_neg_inf, Ideal.ofBits_zero_f32]
    exact RowState.init _ _
  | succ n ih =>
    intro h r
    by_cases h0 : (n + 1) % 10 = 0
    · refine point_step m c hp hy ⟨n + 1, h⟩ (updated_A m c ⟨n + 1, h⟩ h0) r ?_
      rw [pay4_apply, pay5_apply, pay6_apply, pay7_apply, ofBits_neg_inf, Ideal.ofBits_zero_f32]
      show RowState _ _ (3200 * ((n + 1) % 10)) ⊥ 0 0 0
      rw [h0]
      exact RowState.init _ _
    · have hprev := ih (Nat.lt_of_succ_lt h) r
      have hrow : 1024 * (n / 10) + r.val = 1024 * ((n + 1) / 10) + r.val := by omega
      have hcol : 3200 * (n % 10) + 3200 = 3200 * ((n + 1) % 10) := by omega
      rw [hrow, hcol] at hprev
      by_cases h1 : (n + 1) % 10 = 9
      · exact point_step m c hp hy ⟨n + 1, h⟩ (updated_C m c ⟨n + 1, h⟩ h0 h1) r hprev
      · exact point_step m c hp hy ⟨n + 1, h⟩ (updated_B m c ⟨n + 1, h⟩ h0 h1) r hprev

/-- At a row block's last tile, row `r` of the output block is the loss term of global row `1024 (t / 10) + r`. -/
theorem out_last (c : Dev nD) (hp : Finite (m ((c : Thread nD τ).loc main_arg1))) (hy : InRange (m ((c : Thread nD τ).loc main_arg0)))
    (t : Fin cfg0.N) (h9 : t.val % 10 = 9) (r : Fin 1024) :
    (outsAt0 m c t.val t.isLt).1 (ix2 r (0 : Fin 1)) = rowVal m c (1024 * (t.val / 10) + r.val) := by
  have h0 : ¬t.val % 10 = 0 := by omega
  have hst := inv m c hp hy t.val t.isLt r
  rw [h9] at hst
  rw [out_C_eq m c t h0 h9, pay3_apply, ofBits_c₁, ofBits_c₂, ofBits_K]
  have hfin := hst.final (by norm_num) (hy.Yc_lt _) c₁ c₂
  simpa [rowVal] using hfin

end Cert.KernelIdeal.LossInv

end
-- ==== Proof.KernelValue.lean ====
/-
  The kernel's result. The output array [4096, 1] is written back once per row block, at the block's last column tile,
  and those four blocks cover it: entry (i, 0) ends at row i's term of the loss. The host line after the region adds the
  4096 terms from zero: the result is the loss.
-/
import proofs.«423546_j42984032699180_2_alg».proof.Proof.KernelInv
import Idealize.ShloMosaic.Lib.Pipeline.Value
import Idealize.ShloMosaic.Lib.StableHlo.Run
import Idealize.ShloMosaic.PureOps.Ideal.Laws

noncomputable section

namespace Cert.KernelIdeal.LossValue

open Idealize.ShloMosaic Idealize.ShloMosaic.TcCoe Idealize.SL.Sem Idealize.ShloMosaic.ValueIdx
open Idealize.ShloMosaic.Pipeline (Dat)
open Cert.KernelIdeal Cert.KernelIdeal.Gen Cert.Loss Cert.KernelIdeal.LossInv

variable (m : (ℓ : Loc nD τ sig) → Buf (Elt Ideal) ℓ) (ρ : Dev nD → PrngReg)

/-- The output array: entry (i, 0) is row i's term of the loss. -/
def outArr (c : Dev nD) : Vec Ideal S4096x1 .f32 := fun idx => rowVal m c (idx 0).val

/-- Window 2's block index at point `t`: row block `t / 10`, column block 0. -/
theorem idx_facts (t : Fin cfg0.N) : win0_2.index t (0 : Fin 2) = t.val / 10 ∧ win0_2.index t (1 : Fin 2) = 0 :=
  (by decide +kernel : ∀ t : Fin grid0.N, win0_2.index t (0 : Fin 2) = t.val / 10 ∧ win0_2.index t (1 : Fin 2) = 0) t

/-- What a row block's last tile writes back is that block of the rows' terms. -/
theorem flushed_eq (c : Dev nD) (hp : Finite (m ((c : Thread nD τ).loc main_arg1))) (hy : InRange (m ((c : Thread nD τ).loc main_arg0)))
    (t : Fin cfg0.N) (hf : (cfg0.win 2).flush t = true) :
    (dats m 0 c).flushed 2 t = ((cfg0.win 2).blk t).view.read (Elt Ideal) (outArr m c) := by
  have h9 : t.val % 10 = 9 := (flush0_2 t).mp hf
  show (cfg0.win 2).cut (grid0.coords t) ((dats m 0 c).after 2 t) = _
  rw [after0_2]
  funext y
  obtain ⟨r, u, rfl⟩ : ∃ (r : Fin 1024) (u : Fin 1), y = ix2 r u := ⟨y 0, y 1, eq_ix2 y⟩
  obtain rfl : u = 0 := Subsingleton.elim _ _
  show (outsAt0 m c t.val t.isLt).1 (ix2 r (0 : Fin 1)) = rowVal m c (win0_2.index t (0 : Fin 2) * 1024 + 1 * r.val)
  rw [out_last m c hp hy t h9 r, (idx_facts t).1]
  exact congrArg (rowVal m c) (by omega)

/-- An index of the output array is in point `t`'s block iff each coordinate is in the block's range on its axis. -/
theorem mem_blk (t : Fin cfg0.N) (i : S4096x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v1).slice (win0_2.rect t)).set ↔ _
  rw [View.set_slice_whole, Rect.mem_set_unit]
  exact Iff.rfl

/-- Row `i` of the output array lies in the block its row block's last tile writes back. -/
theorem cover (i : S4096x1.Idx) : ∃ t : Fin cfg0.N, (cfg0.win 2).flush t = true ∧ i ∈ ((cfg0.win 2).blk t).view.set := by
  have hN : cfg0.N = 40 := N_0
  have h0 : (i 0).val < 4096 := (i 0).isLt
  have h1 : (i 1).val < 1 := (i 1).isLt
  let t : Fin cfg0.N := ⟨10 * ((i 0).val / 1024) + 9, by omega⟩
  have ht : t.val = 10 * ((i 0).val / 1024) + 9 := rfl
  obtain ⟨e0, e1⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- After the region the output array holds the rows' terms. -/
theorem final_out (c : Dev nD) (hp : Finite (m ((c : Thread nD τ).loc main_arg1))) (hy : InRange (m ((c : Thread nD τ).loc main_arg0))) :
    (dats m 0 c).arrAt 2 cfg0.N = outArr m c := by
  exact (dats m 0 c).arrAt_eq_of_cover 2 (outArr m c) (fun t hf => flushed_eq m c hp hy t hf) cover

/-- The host line after the region: the sum of the output array from zero is the loss. -/
theorem tail_eq (c : Dev nD) (hp : Finite (m ((c : Thread nD τ).loc main_arg1))) (hy : InRange (m ((c : Thread nD τ).loc main_arg0))) :
    Pipeline.afterTail₀ cfgs (dats m) 0 (V0 m) [hostOps1] c main_v2
      = (fun _ => ((total (m ((c : Thread nD τ).loc main_arg0)) (m ((c : Thread nD τ).loc main_arg1)) : ℝ) : EReal)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = outArr m c :=
    (Pipeline.withArrays_arr spec0 launch0.win.arr_inj c _ _ 2).trans (final_out m c hp hy)
  rw [hw]
  funext i
  simp only [Host.reduceAdd, Ideal.hostReduceAdd_def]
  rw [Ideal.hostReduceAdd_total reducesTo_S4096x1_S_d0_1 (fun b => b.elim0) (outArr m c) _ i]
  show Ideal.ofBits .f32 0x00000000#32 + _ = _
  rw [Ideal.ofBits_zero_f32, zero_add, sum_idx2]
  simp only [Fin.sum_univ_one]
  unfold total
  rw [← coe_sum, Finset.sum_range]
  rfl

/-- The run, read: the result buffer at the loss, the arguments unchanged. -/
theorem run (hp : ∀ c : Dev nD, Finite (m ((c : Thread nD τ).loc main_arg1))) (hy : ∀ c : Dev nD, InRange (m ((c : Thread nD τ).loc main_arg0))) :
    θ_run defs (onTc (τ := τ) (main (F := Ideal))) ⟨m, fun _ => 0, ρ⟩ fun r => ∀ c : Dev nD,
      r.2.mem ((c : Thread nD τ).loc main_v2)
        = (fun _ => ((total (m ((c : Thread nD τ).loc main_arg0)) (m ((c : Thread nD τ).loc main_arg1)) : ℝ) : EReal))
      ∧ r.2.mem ((c : Thread nD τ).loc main_arg0) = m ((c : Thread nD τ).loc main_arg0)
      ∧ r.2.mem ((c : Thread nD τ).loc main_arg1) = m ((c : Thread nD τ).loc main_arg1) := by
  exact (θ_run defs _ _).mono (fun r h c =>
      ⟨((h c).2 main_v2 (Pipeline.mem_restRefs_of main_v2 (by decide) (by decide))).trans (tail_eq m c (hp c) (hy c)),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c)))⟩)
    (run_main m ρ)

end Cert.KernelIdeal.LossValue

end
-- ==== Proof.lean ====
/-
  The certificate of the label-smoothed cross-entropy kernel against its jnp reference.

  Both programs compute, for finite logits p : [4096, 32000] and labels y : [4096] that are column numbers,
      loss = Σ_i [ c₁ · (Σ_c p_ic − 32000 · lse_i) + c₂ · (p_{i,y_i} − lse_i) ],      lse_i = log Σ_c exp p_ic,
  with c₁, c₂ the reals the shared literals 3.125e-06 and 0.9 (f32) denote.
  * The kernel sweeps each block of 1024 rows in 10 column tiles, carrying per row a running maximum m, the sum
    Σ exp (p − m) rescaled whenever m grows, the plain sum of the logits, and the logit at the label's column (a compare
    against the tile's column numbers and a select); at the last tile it forms c₁ (s − 32000 (m + log l)) + c₂ (t − (m + log l))
    per row, and the host adds the 4096 terms. By induction over the grid the four accumulators are the row's online
    state (`KernelInv`), m + log l is lse_i whatever real m is (shift invariance, `LogSumExp`), and the written-back
    blocks cover the output array (`KernelValue`).
  * The reference forms log_softmax = (p − max) − log Σ exp (p − max) entrywise, sums all of it, gathers column y_i of
    each row, sums that, and combines the two sums with c₁ and c₂ (`RefValue`): the same real number, by distributing
    the two sums over the rows (`Cert.Loss.total_eq`).
  The labels must be column numbers for this: a negative label is wrapped by the reference's gather and an out-of-range
  one filled, while the kernel's compare-and-select then contributes nothing; the precondition says 0 ≤ y < 32000.
  The idealization rewrote nothing, so `preserves` is trivial; the three frames are the generated frame runs (the
  reference's: its run with the result dropped).
-/
import proofs.«423546_j42984032699180_2_alg».proof.Defs
import proofs.«423546_j42984032699180_2_alg».proof.Proof.Gen.Kernel
import proofs.«423546_j42984032699180_2_alg».proof.Proof.Gen.Kernel.Frame
import proofs.«423546_j42984032699180_2_alg».proof.Proof.Gen.KernelIdeal
import proofs.«423546_j42984032699180_2_alg».proof.Proof.Gen.KernelIdeal.Frame
import proofs.«423546_j42984032699180_2_alg».proof.Proof.Gen.ReferenceIdeal
import proofs.«423546_j42984032699180_2_alg».proof.Proof.Gen.Pre_finite_inputs
import proofs.«423546_j42984032699180_2_alg».proof.Proof.RefRun
import proofs.«423546_j42984032699180_2_alg».proof.Proof.RefRead
import proofs.«423546_j42984032699180_2_alg».proof.Proof.RefValue
import proofs.«423546_j42984032699180_2_alg».proof.Proof.PreFacts
import proofs.«423546_j42984032699180_2_alg».proof.Proof.KernelValue
import Idealize.ShloMosaic.Adequacy
import Idealize.ShloMosaic.Init

noncomputable section

namespace Cert.Proof

open Idealize.ShloMosaic Idealize.SL.Sem

attribute [local instance] Cert.Pre_finite_inputs.Gen.facts Cert.Kernel.Gen.facts Cert.KernelIdeal.Gen.facts Cert.ReferenceIdeal.Gen.facts

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the loss of the (agreeing) arguments. -/
theorem algebraic : Cert.algebraic_KernelIdeal_ReferenceIdeal := by
  intro m ρ m' ρ' hpre hagree
  have hf := fun c => Cert.Loss.facts_of_pre _ _ (hpre c)
  refine ⟨fun c _ => ((Cert.Loss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) : ℝ) : EReal),
    Cert.KernelIdeal.LossValue.run m ρ (fun c => (hf c).1) (fun c => (hf c).2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v8_eq,
    Cert.ReferenceIdeal.LossRef.val_eq_total _ _ (by rw [(hagree c).2]; exact (hf c).1) (by rw [(hagree c).1]; exact (hf c).2),
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
